-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x512 : Shape := ⟨2, ![10000, 512]⟩
abbrev S10000x16 : Shape := ⟨2, ![10000, 16]⟩
abbrev S3300000x16 : Shape := ⟨2, ![3300000, 16]⟩
abbrev S1x16 : Shape := ⟨2, ![1, 16]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 92
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .local _ .vmem, ⟨0, _⟩ => ⟨S10000x512, .f32⟩
  | .local _ .vmem, ⟨1, _⟩ => ⟨S10000x512, .f32⟩
  | .local _ .vmem, ⟨2, _⟩ => ⟨S512x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x512_S10000x512_0_0 : ∀ a, (![0, 0] : Fin 2 → Nat) a + S10000x512.size a ≤ S10000x512.size a
  h_S10000x512 : 0 < S10000x512.numel
  inb_S512x16_S512x16_0_0 : ∀ a, (![0, 0] : Fin 2 → Nat) a + S512x16.size a ≤ S512x16.size a
  h_S512x16 : 0 < S512x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x512_S512x16_S10000x16_1_0_0_1_n_n_wf : DotDims.WF S10000x512 S512x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .f32 = 32 ∨ (Rect.block (s := S100000x512) S10000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x64, .f32⟩
  | .hbm, ⟨105, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  What a two-layer graph convolution's three dense pieces compute, as whole-array functions on the extended reals.

  * `mm a k b x w` — the matrix product: entry (p, q) is  ∑ κ < k, x (p, κ) · w (κ, q).  A product taken block of rows by
    block of rows is the same function, because row p of the result reads row p of `x` only.
  * `rowMax n d z p` — the largest entry of row p of `z`, as the fold of `max` from −∞ over the d columns.
  * `lsm n d z` — the row-wise log-softmax: entry (p, q) is  (z (p, q) − M p) − log ∑ κ < d, exp (z (p, κ) − M p)  with
    M p the row's maximum. Row p of the result reads row p of `z` only, so it too may be taken block of rows by block.
-/
import Idealize.ShloMosaic.Lib.ValueIdx
import Idealize.ShloMosaic.PureOps.Ideal

noncomputable section

namespace Cert.Gcn

open Idealize.ShloMosaic Idealize.ShloMosaic.ValueIdx

/-- The row of an index of an n × d array. -/
abbrev rowOf {n d : ℕ} (j : (⟨2, ![n, d]⟩ : Shape).Idx) : Fin n := ⟨(j 0).val, (j 0).isLt⟩
/-- The column of an index of an n × d array. -/
abbrev colOf {n d : ℕ} (j : (⟨2, ![n, d]⟩ : Shape).Idx) : Fin d := ⟨(j 1).val, (j 1).isLt⟩

/-- An index is its row and its column. -/
theorem ix2_rowOf_colOf {n d : ℕ} (j : (⟨2, ![n, d]⟩ : Shape).Idx) : ix2 (rowOf j) (colOf j) = j :=
  funext fun a => Fin.ext (by match a with | ⟨0, _⟩ => rfl | ⟨1, _⟩ => rfl)

/-- The matrix product [a, k] · [k, b]. -/
def mm (a k b : ℕ) (x : FVec Ideal ⟨2, ![a, k]⟩ .f32) (w : FVec Ideal ⟨2, ![k, b]⟩ .f32) : FVec Ideal ⟨2, ![a, b]⟩ .f32 :=
  fun j => ∑ κ : Fin k, x (ix2 (rowOf j) κ) * w (ix2 κ (colOf j))

theorem mm_apply (a k b : ℕ) (x : FVec Ideal ⟨2, ![a, k]⟩ .f32) (w : FVec Ideal ⟨2, ![k, b]⟩ .f32) (p : Fin a) (q : Fin b) :
    mm a k b x w (ix2 p q) = ∑ κ : Fin k, x (ix2 p κ) * w (ix2 κ q) := rfl

/-- A row's maximum, folded from −∞. -/
def rowMax (n d : ℕ) (z : FVec Ideal ⟨2, ![n, d]⟩ .f32) (p : Fin n) : EReal :=
  (Finset.univ : Finset (Fin d)).fold max (Ideal.ofBits .f32 0xFF800000#32) (fun κ => z (ix2 p κ))

/-- The row-wise log-softmax. -/
def lsm (n d : ℕ) (z : FVec Ideal ⟨2, ![n, d]⟩ .f32) : FVec Ideal ⟨2, ![n, d]⟩ .f32 :=
  fun j => (z j - rowMax n d z (rowOf j)) - Ideal.log (∑ κ : Fin d, Ideal.exp (z (ix2 (rowOf j) κ) - rowMax n d z (rowOf j)))

theorem lsm_apply (n d : ℕ) (z : FVec Ideal ⟨2, ![n, d]⟩ .f32) (p : Fin n) (q : Fin d) :
    lsm n d z (ix2 p q) = (z (ix2 p q) - rowMax n d z p) - Ideal.log (∑ κ : Fin d, Ideal.exp (z (ix2 p κ) - rowMax n d z p)) := rfl

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.MatBlocks.lean ====
/-
  Regions 0 and 1 (the two row-tiled matrix products), read as values at the extended reals: the output array after
  the region's ten grid points is the matrix product of the two input arrays as the region finds them.
-/
import proofs.«149497_j29832842838041_1_alg».proof.Proof.Gen.KernelIdeal.Frame
import proofs.«149497_j29832842838041_1_alg».proof.Proof.Spec
import proofs.«149497_j29832842838041_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals: any
variable (V : (c : Dev nD) → (b : Ref sig .tc) → Buf (Elt Ideal) ((c : Thread nD τ).loc b))

/-! ## The two products' dimension numbers are those of a plain matrix product -/

theorem plain0 : Cert.PlainDot.Plain dot_S10000x512_S512x16_S10000x16_1_0_0_1_n_n := ⟨rfl, rfl, rfl, rfl, rfl, rfl⟩
theorem plain1 : Cert.PlainDot.Plain dot_S10000x16_S16x64_S10000x64_1_0_0_1_n_n := ⟨rfl, rfl, rfl, rfl, rfl, rfl⟩

/-! ## What a point's body computes, entry by entry: the product of the two loaded blocks -/

/-- Region 0's block product at entry (p, q): row p of the left block against column q of the right. -/
theorem pay0_apply (x0 : Vec Ideal S10000x512 .f32) (x1 : Vec Ideal S512x16 .f32) (p : Fin 10000) (q : Fin 16) :
    k0_pay1 x0 x1 (ix2 p q) = ∑ κ : Fin 512, x0 (ix2 p κ) * x1 (ix2 κ q) := by
  unfold k0_pay1
  exact Cert.PlainDot.matmul_zero_apply plain0 rfl rfl none x0 x1 p q

/-- Region 1's block product at entry (p, q); the cast of the left block to its own shape changes nothing. -/
theorem pay1_apply (x0 : Vec Ideal S10000x16 .f32) (x1 : Vec Ideal S16x64 .f32) (p : Fin 10000) (q : Fin 64) :
    k1_pay1 x0 x1 (ix2 p q) = ∑ κ : Fin 16, x0 (ix2 p κ) * x1 (ix2 κ q) := by
  unfold k1_pay1
  rw [shapeCast_self]
  exact Cert.PlainDot.matmul_zero_apply plain1 rfl rfl none x0 x1 p q

/-! ## What a point writes back is its block of rows of the whole product -/

theorem hz : (![0, 0] : Fin 2 → Nat) = fun _ => 0 := funext fun a => by
  match a with
  | ⟨0, _⟩ => rfl
  | ⟨1, _⟩ => rfl

/-- The printed index maps over region 0's grid: the left operand's and the result's blocks of rows are those of the
    point, the right operand is one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 10000·t + p of the array. -/
theorem read0_0 (c : Dev nD) (t : Fin cfg0.N) (p : Fin 10000) (κ : Fin 512) (P : Fin 100000)
    (hP : P.val = 10000 * t.val + p.val) :
    iblk0 (F := Ideal) V c 0 t (ix2 p κ) = V c main_arg0 (ix2 P κ) := by
  show V c main_arg0 (((cfg0.win 0).blk t).view.emb (ix2 p κ)) = V c main_arg0 (ix2 P κ)
  obtain ⟨e0, e1, -, -, -, -⟩ := idx_facts0 t
  refine congrArg (V c main_arg0) (funext fun a => Fin.ext ?_)
  match a with
  | ⟨0, _⟩ => show win0_0.index t (0 : Fin 2) * 10000 + 1 * p.val = P.val; omega
  | ⟨1, _⟩ => show win0_0.index t (1 : Fin 2) * 512 + 1 * κ.val = κ.val; omega

/-- The right operand's block is the whole array at every point. -/
theorem read0_1 (c : Dev nD) (t : Fin cfg0.N) (κ : Fin 512) (q : Fin 16) :
    iblk0 (F := Ideal) V c 1 t (ix2 κ q) = V c main_arg2 (ix2 κ q) := by
  show V c main_arg2 (((cfg0.win 1).blk t).view.emb (ix2 κ q)) = V c main_arg2 (ix2 κ q)
  obtain ⟨-, -, e2, e3, -, -⟩ := idx_facts0 t
  refine congrArg (V c main_arg2) (funext fun a => Fin.ext ?_)
  match a with
  | ⟨0, _⟩ => show win0_1.index t (0 : Fin 2) * 512 + 1 * κ.val = κ.val; omega
  | ⟨1, _⟩ => show win0_1.index t (1 : Fin 2) * 16 + 1 * q.val = q.val; omega

/-- Entry (p, q) of the result's block at point t is entry (10000·t + p, q) of the array. -/
theorem emb0_2 (t : Fin cfg0.N) (p : Fin 10000) (q : Fin 16) (P : Fin 100000) (hP : P.val = 10000 * t.val + p.val) :
    ((cfg0.win 2).blk t).view.emb (ix2 p q) = ix2 P q := by
  obtain ⟨-, -, -, -, e4, e5⟩ := idx_facts0 t
  refine funext fun a => Fin.ext ?_
  match a with
  | ⟨0, _⟩ => show win0_2.index t (0 : Fin 2) * 10000 + 1 * p.val = P.val; omega
  | ⟨1, _⟩ => show win0_2.index t (1 : Fin 2) * 16 + 1 * q.val = q.val; omega

/-- What point t writes back is block t of the whole product. -/
theorem flushed0_eq (c : Dev nD) (t : Fin cfg0.N) :
    (dat0 (F := Ideal) V c).flushed 2 t
      = ((cfg0.win 2).blk t).view.read (Elt Ideal) (Cert.Gcn.mm 100000 512 16 (V c main_arg0) (V c main_arg2)) := by
  show (cfg0.win 2).cut (grid0.coords t) ((dat0 V c).after 2 t) = _
  rw [after0_2]
  unfold out0_2
  rw [View.canon_unit_zero hz]
  simp only [View.ld_unit_zero (S := S10000x512) hz, View.ld_unit_zero (S := S512x16) hz]
  funext j
  obtain ⟨p, q, rfl⟩ : ∃ (p : Fin 10000) (q : Fin 16), j = ix2 p q := ⟨j 0, j 1, eq_ix2 j⟩
  have ht : t.val < 10 := lt_of_lt_of_eq t.isLt N_0
  have hP : 10000 * t.val + p.val < 100000 := by have := p.isLt; omega
  show k0_pay1 (iblk0 V c 0 t) (iblk0 V c 1 t) (ix2 p q)
    = Cert.Gcn.mm 100000 512 16 (V c main_arg0) (V c main_arg2) (((cfg0.win 2).blk t).view.emb (ix2 p q))
  rw [emb0_2 t p q ⟨_, hP⟩ rfl, Cert.Gcn.mm_apply]
  refine (pay0_apply (iblk0 V c 0 t) (iblk0 V c 1 t) p q).trans (Finset.sum_congr rfl fun κ _ => ?_)
  rw [read0_0 V c t p κ ⟨_, hP⟩ rfl, read0_1 V c t κ q]

/-! ## The ten blocks of rows cover the result -/

/-- An index of the result lies in point t's block iff each coordinate lies in the block's range on its axis. -/
theorem mem_blk0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v31).slice (win0_2.rect t)).set ↔ _
  rw [View.set_slice_whole, Rect.mem_set_unit]
  exact Iff.rfl

/-- Row r of the result lies in the block of point r / 10000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, et⟩ : ∃ t : Fin cfg0.N, t.val = (i 0).val / 10000 :=
    ⟨⟨(i 0).val / 10000, lt_of_lt_of_eq (by omega : (i 0).val / 10000 < 10) N_0.symm⟩, rfl⟩
  refine ⟨t, flush0_2 t, ?_⟩
  rw [mem_blk0]
  obtain ⟨-, -, -, -, e4, e5⟩ := idx_facts0 t
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- Region 0: after its ten points the output array `main_v31` holds x · W1, for x = `main_arg0` and W1 = `main_arg2` as entered. -/
theorem arr0 (c : Dev nD) :
    (dat0 (F := Ideal) V c).arrAt 2 cfg0.N = Cert.Gcn.mm 100000 512 16 (V c main_arg0) (V c main_arg2) :=
  (dat0 (F := Ideal) V c).arrAt_eq_of_cover 2 _ (fun t _ => flushed0_eq V c t) cover0

/-! ## Region 1, the same way: [100000, 16] · [16, 64] in ten blocks of rows -/

/-- The printed index maps over region 1's grid: the left operand's and the result's blocks of rows are those of the
    point, the right operand is one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 10000·t + p of the array. -/
theorem read1_0 (c : Dev nD) (t : Fin cfg1.N) (p : Fin 10000) (κ : Fin 16) (P : Fin 100000)
    (hP : P.val = 10000 * t.val + p.val) :
    iblk1 (F := Ideal) V c 0 t (ix2 p κ) = V c main_v48 (ix2 P κ) := by
  show V c main_v48 (((cfg1.win 0).blk t).view.emb (ix2 p κ)) = V c main_v48 (ix2 P κ)
  obtain ⟨e0, e1, -, -, -, -⟩ := idx_facts1 t
  refine congrArg (V c main_v48) (funext fun a => Fin.ext ?_)
  match a with
  | ⟨0, _⟩ => show win1_0.index t (0 : Fin 2) * 10000 + 1 * p.val = P.val; omega
  | ⟨1, _⟩ => show win1_0.index t (1 : Fin 2) * 16 + 1 * κ.val = κ.val; omega

/-- The right operand's block is the whole array at every point. -/
theorem read1_1 (c : Dev nD) (t : Fin cfg1.N) (κ : Fin 16) (q : Fin 64) :
    iblk1 (F := Ideal) V c 1 t (ix2 κ q) = V c main_arg4 (ix2 κ q) := by
  show V c main_arg4 (((cfg1.win 1).blk t).view.emb (ix2 κ q)) = V c main_arg4 (ix2 κ q)
  obtain ⟨-, -, e2, e3, -, -⟩ := idx_facts1 t
  refine congrArg (V c main_arg4) (funext fun a => Fin.ext ?_)
  match a with
  | ⟨0, _⟩ => show win1_1.index t (0 : Fin 2) * 16 + 1 * κ.val = κ.val; omega
  | ⟨1, _⟩ => show win1_1.index t (1 : Fin 2) * 64 + 1 * q.val = q.val; omega

/-- Entry (p, q) of the result's block at point t is entry (10000·t + p, q) of the array. -/
theorem emb1_2 (t : Fin cfg1.N) (p : Fin 10000) (q : Fin 64) (P : Fin 100000) (hP : P.val = 10000 * t.val + p.val) :
    ((cfg1.win 2).blk t).view.emb (ix2 p q) = ix2 P q := by
  obtain ⟨-, -, -, -, e4, e5⟩ := idx_facts1 t
  refine funext fun a => Fin.ext ?_
  match a with
  | ⟨0, _⟩ => show win1_2.index t (0 : Fin 2) * 10000 + 1 * p.val = P.val; omega
  | ⟨1, _⟩ => show win1_2.index t (1 : Fin 2) * 64 + 1 * q.val = q.val; omega

/-- What point t writes back is block t of the whole product. -/
theorem flushed1_eq (c : Dev nD) (t : Fin cfg1.N) :
    (dat1 (F := Ideal) V c).flushed 2 t
      = ((cfg1.win 2).blk t).view.read (Elt Ideal) (Cert.Gcn.mm 100000 16 64 (V c main_v48) (V c main_arg4)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x64) hz]
  funext j
  obtain ⟨p, q, rfl⟩ : ∃ (p : Fin 10000) (q : Fin 64), j = ix2 p q := ⟨j 0, j 1, eq_ix2 j⟩
  have ht : t.val < 10 := lt_of_lt_of_eq t.isLt N_1
  have hP : 10000 * t.val + p.val < 100000 := by have := p.isLt; omega
  show k1_pay1 (iblk1 V c 0 t) (iblk1 V c 1 t) (ix2 p q)
    = Cert.Gcn.mm 100000 16 64 (V c main_v48) (V c main_arg4) (((cfg1.win 2).blk t).view.emb (ix2 p q))
  rw [emb1_2 t p q ⟨_, hP⟩ rfl, Cert.Gcn.mm_apply]
  refine (pay1_apply (iblk1 V c 0 t) (iblk1 V c 1 t) p q).trans (Finset.sum_congr rfl fun κ _ => ?_)
  rw [read1_0 V c t p κ ⟨_, hP⟩ rfl, read1_1 V c t κ q]

/-- An index of the result lies in point t's block iff each coordinate lies in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v49).slice (win1_2.rect t)).set ↔ _
  rw [View.set_slice_whole, Rect.mem_set_unit]
  exact Iff.rfl

/-- Row r of the result lies in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, et⟩ : ∃ t : Fin cfg1.N, t.val = (i 0).val / 10000 :=
    ⟨⟨(i 0).val / 10000, lt_of_lt_of_eq (by omega : (i 0).val / 10000 < 10) N_1.symm⟩, rfl⟩
  refine ⟨t, flush1_2 t, ?_⟩
  rw [mem_blk1]
  obtain ⟨-, -, -, -, e4, e5⟩ := idx_facts1 t
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- Region 1: after its ten points the output array `main_v49` holds h · W2, for h = `main_v48` and W2 = `main_arg4` as entered. -/
theorem arr1 (c : Dev nD) :
    (dat1 (F := Ideal) V c).arrAt 2 cfg1.N = Cert.Gcn.mm 100000 16 64 (V c main_v48) (V c main_arg4) :=
  (dat1 (F := Ideal) V c).arrAt_eq_of_cover 2 _ (fun t _ => flushed1_eq V c t) cover1

end Cert.KernelIdeal.MatBlocks

end
-- ==== Proof.SoftmaxBlocks.lean ====
/-
  Region 2 (the row-tiled log-softmax), read as a value at the extended reals: the output array after the region's ten
  grid points is the row-wise log-softmax of the input array as the region finds it.
-/
import proofs.«149497_j29832842838041_1_alg».proof.Proof.Gen.KernelIdeal.Frame
import proofs.«149497_j29832842838041_1_alg».proof.Proof.Spec
import proofs.«149497_j29832842838041_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SoftmaxBlocks

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## A column vector kept as a one-column matrix

A row reduction leaves one value per row, a vector of extent a. The body keeps it as an [a, 1] matrix and stretches that
over the b columns: entry (p, q) of the stretched matrix is the vector's entry p, whatever q. -/

section Column
variable {α : Type}

/-- A vector of extent a cast to an [a, 1] matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] matrix stretched over b columns reads, at (p, c), its one column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two row reductions at the extended reals -/

/-- The index of row p with column κ inserted is (p, κ). -/
theorem lift_row {a b : ℕ} (h : Shape.Reduces ⟨2, ![a, b]⟩ [1] ⟨1, ![a]⟩) (p : Fin a) (κ : Fin b) :
    h.lift (ix1 p) κ = ix2 p κ :=
  funext fun c => Fin.ext (by match c with | ⟨0, _⟩ => rfl | ⟨1, _⟩ => rfl)

/-- A maximum taken along the rows of an [a, b] matrix, from the accumulator's value: at row p the fold of max over
    that row's b entries. -/
theorem rowMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (p : Fin a) :
    multiReduction .maximumf [1] ⟨1, ![a]⟩ v acc h hφ hacc (ix1 p)
      = (Finset.univ : Finset (Fin b)).fold max (Ideal.ofBits .f32 acc) (fun κ => v (ix2 p κ)) :=
  (Ideal.multiReduction_maximumf_single v acc h hφ hacc (ix1 p)).trans
    (congrArg (fun f => (Finset.univ : Finset (Fin b)).fold max (Ideal.ofBits .f32 acc) f)
      (funext fun κ => congrArg v (lift_row h p κ)))

/-- A sum taken along the rows of an [a, b] matrix: at row p the sum of that row's b entries. -/
theorem rowSum_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.add.neutral .f32 hφ) (p : Fin a) :
    multiReduction .add [1] ⟨1, ![a]⟩ v acc h hφ hacc (ix1 p) = ∑ κ : Fin b, v (ix2 p κ) :=
  (Ideal.multiReduction_add_single v acc h hφ hacc (ix1 p)).trans
    (Finset.sum_congr rfl fun κ _ => congrArg v (lift_row h p κ))

/-- The log-softmax at an entry reads that entry's row only: two matrices with a row in common have the same
    log-softmax along it. -/
theorem lsm_of_row {n n' d : ℕ} (x : FVec Ideal ⟨2, ![n, d]⟩ .f32) (z : FVec Ideal ⟨2, ![n', d]⟩ .f32) (p : Fin n) (P : Fin n')
    (hrow : ∀ κ : Fin d, x (ix2 p κ) = z (ix2 P κ)) (q : Fin d) :
    Cert.Gcn.lsm n d x (ix2 p q) = Cert.Gcn.lsm n' d z (ix2 P q) := by
  have hM : Cert.Gcn.rowMax n d x p = Cert.Gcn.rowMax n' d z P :=
    congrArg (fun f => (Finset.univ : Finset (Fin d)).fold max (Ideal.ofBits .f32 0xFF800000#32) f) (funext hrow)
  rw [Cert.Gcn.lsm_apply, Cert.Gcn.lsm_apply, hM, hrow q]
  exact congrArg (fun s => z (ix2 P q) - Cert.Gcn.rowMax n' d z P - Ideal.log s)
    (Finset.sum_congr rfl fun κ _ => by rw [hrow κ])

/-! ## What a point's body computes, entry by entry: the log-softmax of the loaded block's row -/

/-- The body on a loaded block, at entry (p, q): the entry less its row's maximum, less the logarithm of the sum of the
    row's exponentials taken from that maximum. Only row p of the block is read. -/
theorem pay_apply (x0 : Vec Ideal S10000x64 .f32) (p : Fin 10000) (q : Fin 64) :
    k2_pay1 x0 (ix2 p q) = Cert.Gcn.lsm 10000 64 x0 (ix2 p q) := by
  unfold k2_pay1
  rw [shapeCast_self, Cert.Gcn.lsm_apply]
  -- the row's maximum, kept as a column and stretched over the 64 columns, is the row's maximum at every column
  have hM : ∀ κ : Fin 64,
      broadcastTo S10000x64
          (shapeCast S10000x1
            (multiReduction (F := Ideal) .maximumf [1] S10000 x0 0xFF800000#32 reduces_S10000x64_S10000 (.inl rfl) rfl)
            shapeCasts_S10000_S10000x1)
          broadcasts_S10000x1_S10000x64 (ix2 p κ)
        = Cert.Gcn.rowMax 10000 64 x0 p := fun κ =>
    (broadcastTo_a1_ab_apply _ _ p κ).trans ((shapeCast_a_a1_apply _ _ p 0).trans (rowMax_apply x0 _ _ _ _ p))
  refine (subf_apply _ _ _).trans (congrArg₂ (· - ·) ?_ ?_)
  · -- the entry less its row's maximum
    exact (subf_apply _ _ _).trans (congrArg (x0 (ix2 p q) - ·) (hM q))
  · -- the logarithm of the row's sum of exponentials, kept as a column and stretched likewise
    refine (broadcastTo_a1_ab_apply _ _ p q).trans ?_
    show Ideal.log _ = Ideal.log _
    refine congrArg Ideal.log ((shapeCast_a_a1_apply _ _ p 0).trans ((rowSum_apply _ _ _ _ _ p).trans ?_))
    refine Finset.sum_congr rfl fun κ _ => ?_
    show Ideal.exp _ = Ideal.exp _
    exact congrArg Ideal.exp ((subf_apply _ _ _).trans (congrArg (x0 (ix2 p κ) - ·) (hM κ)))

/-! ## What a point writes back is its block of rows of the whole log-softmax -/

theorem zero_off : (![0, 0] : Fin 2 → Nat) = fun _ => 0 := funext fun a => by
  match a with
  | ⟨0, _⟩ => rfl
  | ⟨1, _⟩ => rfl

/-- The printed index maps, decided over the ten points: at point t both windows sit at block row t, block column 0. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-! ## The ten blocks of rows tile the array -/

/-- An index of the array is in point t's block iff each coordinate is in the block's range on its axis. -/
theorem mem_blk (t : Fin cfg2.N) (i : S100000x64.Idx) :
    i ∈ ((cfg2.win 1).blk t).view.set
      ↔ ∀ a : Fin 2, win2_1.index t a * S10000x64.size a ≤ (i a).val
          ∧ (i a).val < win2_1.index t a * S10000x64.size a + S10000x64.size a := by
  show i ∈ ((View.whole main_v66).slice (win2_1.rect t)).set ↔ _
  rw [View.set_slice_whole, Rect.mem_set_unit]
  exact Iff.rfl

/-- Row r of the array lies in the block of point r / 10000. -/
theorem cover (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have ht : (i 0).val / 10000 < cfg2.N := lt_of_lt_of_eq (by omega : (i 0).val / 10000 < 10) N_2.symm
  refine ⟨⟨(i 0).val / 10000, ht⟩, flush2_1 _, ?_⟩
  rw [mem_blk]
  obtain ⟨-, -, e0, e1⟩ := idx_rows ⟨(i 0).val / 10000, ht⟩
  intro a
  match a with
  | ⟨0, _⟩ =>
    show win2_1.index ⟨(i 0).val / 10000, ht⟩ (0 : Fin 2) * 10000 ≤ (i 0).val
      ∧ (i 0).val < win2_1.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_1.index ⟨(i 0).val / 10000, ht⟩ (1 : Fin 2) * 64 ≤ (i 1).val
      ∧ (i 1).val < win2_1.index ⟨(i 0).val / 10000, ht⟩ (1 : Fin 2) * 64 + 64
    rw [e1]
    omega

-- the TensorCore's buffer contents when the region is entered, at the extended reals: any
variable (V : (c : Dev nD) → (b : Ref sig .tc) → Buf (Elt Ideal) ((c : Thread nD τ).loc b))

/-- Row p of the input block at point t is row 10000·t + p of the input array, column for column. -/
theorem block_read (c : Dev nD) (t : Fin cfg2.N) (p : Fin 10000) (κ : Fin 64) (P : Fin 100000)
    (hP : P.val = t.val * 10000 + p.val) :
    iblk2 (F := Ideal) V c 0 t (ix2 p κ) = V c main_v65 (ix2 P κ) := by
  unfold iblk2
  show V c main_v65 (((cfg2.win 0).blk t).view.emb (ix2 p κ)) = V c main_v65 (ix2 P κ)
  refine congrArg (V c main_v65) (funext fun a => Fin.ext ?_)
  obtain ⟨e0, e1, -, -⟩ := idx_rows t
  match a with
  | ⟨0, _⟩ => show win2_0.index t (0 : Fin 2) * 10000 + 1 * p.val = P.val; omega
  | ⟨1, _⟩ => show win2_0.index t (1 : Fin 2) * 64 + 1 * κ.val = κ.val; omega

/-- What point t writes back is block t of the whole array's log-softmax: rows 10000·t to 10000·t + 9999. -/
theorem flushed_eq (c : Dev nD) (t : Fin cfg2.N) :
    (dat2 (F := Ideal) V c).flushed 1 t
      = ((cfg2.win 1).blk t).view.read (Elt Ideal) (Cert.Gcn.lsm 100000 64 (V c main_v65)) := by
  show (cfg2.win 1).cut (grid2.coords t) ((dat2 V c).after 1 t) = _
  rw [after2_1]
  unfold out2_1
  rw [View.canon_unit_zero zero_off]
  simp only [View.ld_unit_zero (S := S10000x64) zero_off]
  funext j
  have hj0 : (j 0).val < 10000 := (j 0).isLt
  have hj1 : (j 1).val < 64 := (j 1).isLt
  have ht : t.val < 10 := lt_of_lt_of_eq t.isLt N_2
  have hP : t.val * 10000 + (j 0).val < 100000 := by omega
  obtain ⟨-, -, e0, e1⟩ := idx_rows t
  have hjx : (win2 1).xinj (grid2.coords t) j = ix2 (⟨(j 0).val, hj0⟩ : Fin 10000) (⟨(j 1).val, hj1⟩ : Fin 64) :=
    funext fun a => by
      match a with
      | ⟨0, _⟩ => rfl
      | ⟨1, _⟩ => rfl
  have hemb : ((cfg2.win 1).blk t).view.emb j
      = ix2 (⟨t.val * 10000 + (j 0).val, hP⟩ : Fin 100000) (⟨(j 1).val, hj1⟩ : Fin 64) :=
    funext fun a => Fin.ext (by
      match a with
      | ⟨0, _⟩ => show win2_1.index t (0 : Fin 2) * 10000 + 1 * (j 0).val = t.val * 10000 + (j 0).val; omega
      | ⟨1, _⟩ => show win2_1.index t (1 : Fin 2) * 64 + 1 * (j 1).val = (j 1).val; omega)
  show k2_pay1 (iblk2 V c 0 t) ((win2 1).xinj (grid2.coords t) j)
    = Cert.Gcn.lsm 100000 64 (V c main_v65) (((cfg2.win 1).blk t).view.emb j)
  exact (congrArg (k2_pay1 (iblk2 V c 0 t)) hjx).trans
    ((pay_apply (iblk2 V c 0 t) _ _).trans
      ((lsm_of_row (iblk2 V c 0 t) (V c main_v65) _ ⟨t.val * 10000 + (j 0).val, hP⟩
          (fun κ => block_read V c t _ κ _ rfl) _).trans
        (congrArg (Cert.Gcn.lsm 100000 64 (V c main_v65)) hemb.symm)))

/-- Region 2: after its ten points the output array `main_v66` holds the row-wise log-softmax of `main_v65` as entered. -/
theorem arr2 (c : Dev nD) :
    (dat2 (F := Ideal) V c).arrAt 1 cfg2.N = Cert.Gcn.lsm 100000 64 (V c main_v65) :=
  (dat2 V c).arrAt_eq_of_cover 1 _ (fun t _ => flushed_eq V c t) cover

end Cert.KernelIdeal.SoftmaxBlocks

end
-- ==== Proof.RefBridge.lean ====
/-
  The reference's three dense stages, read as the specification's whole-array functions at the extended reals: its two
  `dot_general`s are the matrix product `mm` (entry (p, q) the sum over the contracted index), and its log-softmax
  tail — the row maximum folded from −∞ and joined once more with −∞, the subtraction, the exponential, the row sum from
  0, the logarithm, the second subtraction — is `lsm` (`max (−∞) y = y`, `0 + s = s`).
-/
import proofs.«149497_j29832842838041_1_alg».proof.Proof.RefRead
import proofs.«149497_j29832842838041_1_alg».proof.Proof.Spec
import proofs.«149497_j29832842838041_1_alg».proof.Proof.LibPlainDot
import Idealize.ShloMosaic.Lib.ValueIdx
import Idealize.ShloMosaic.PureOps.Ideal.Laws

set_option maxRecDepth 16384

noncomputable section

namespace Cert.RefBridge

open Cert.ReferenceIdeal Cert.ReferenceIdeal.ReadP
open Idealize.ShloMosaic Idealize.ShloMosaic.TcCoe Idealize.ShloMosaic.ValueIdx

/-- The first dense stage is the matrix product of its two operands. -/
theorem ref_mm1 (x : (⟨S100000x512, .f32⟩ : BufTy).Contents (Elt Ideal)) (w : (⟨S512x16, .f32⟩ : BufTy).Contents (Elt Ideal)) :
    val_main_v31 (F := Ideal) x w = Cert.Gcn.mm 100000 512 16 x w := by
  funext j
  rw [val_main_v31_apply]
  unfold Cert.Gcn.mm
  refine Finset.sum_congr rfl fun k _ => ?_
  have el : lidx_main_v31 j k = ix2 (Cert.Gcn.rowOf j) k :=
    funext fun a => Fin.ext (by match a with | ⟨0, _⟩ => rfl | ⟨1, _⟩ => rfl)
  have er : ridx_main_v31 j k = ix2 k (Cert.Gcn.colOf j) :=
    funext fun a => Fin.ext (by match a with | ⟨0, _⟩ => rfl | ⟨1, _⟩ => rfl)
  rw [el, er]

/-- The second dense stage is the matrix product of the relu stage with the second weight matrix. -/
theorem ref_mm2 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) :
    val_main_v49 (F := Ideal) x0 x1 x2 x3 x4 = Cert.Gcn.mm 100000 16 64 (val_main_v48 (F := Ideal) x0 x1 x2 x3) x4 := by
  funext j
  rw [val_main_v49_apply]
  unfold Cert.Gcn.mm
  refine Finset.sum_congr rfl fun k _ => ?_
  have el : lidx_main_v49 j k = ix2 (Cert.Gcn.rowOf j) k :=
    funext fun a => Fin.ext (by match a with | ⟨0, _⟩ => rfl | ⟨1, _⟩ => rfl)
  have er : ridx_main_v49 j k = ix2 k (Cert.Gcn.colOf j) :=
    funext fun a => Fin.ext (by match a with | ⟨0, _⟩ => rfl | ⟨1, _⟩ => rfl)
  rw [el, er]

/-! ## The row maximum -/

/-- A row index with a column put back on the reduced axis is that (row, column). -/
theorem lift_row (h : S100000x64.Reduces [1] S100000) (i : S100000.Idx) (k : Fin (S100000x64.size 1)) :
    h.lift i k = ix2 (⟨(i 0).val, (i 0).isLt⟩ : Fin 100000) (⟨k.val, k.isLt⟩ : Fin 64) := by
  funext c; apply Fin.ext
  fin_cases c <;> rfl

/-- The maximum with −∞ is the other operand. -/
theorem max_negInf (y : Ideal .f32) : max (Ideal.ofBits .f32 0xFF800000#32) y = y := by
  simp [Ideal.ofBits, Ideal.ieee]

/-- The host's reduction of a row with a maximum body, from −∞, is the fold of `max` over the row's 64 columns. -/
theorem reduce_max_row (z : (⟨S100000x64, .f32⟩ : BufTy).Contents (Elt Ideal)) (i : S100000.Idx) :
    Host.reduce (FloatOps.maximumf (F := Ideal) (φ := .f32)) z (val_main_call2_cst (F := Ideal)) Gen.reducesTo_S100000x64_S100000_d1 Gen.h_S_ i
      = Cert.Gcn.rowMax 100000 64 z ⟨(i 0).val, (i 0).isLt⟩ := by
  have h : S100000x64.Reduces [1] S100000 := by decide
  refine (Host.reduce_eq_fold_single (FloatOps.maximumf (F := Ideal) (φ := .f32)) z _ Gen.reducesTo_S100000x64_S100000_d1 h Gen.h_S_ i).trans ?_
  unfold Cert.Gcn.rowMax
  have hf : (z ∘ h.lift i) = fun κ : Fin 64 => z (ix2 (⟨(i 0).val, (i 0).isLt⟩ : Fin 100000) κ) :=
    funext fun k => congrArg z (lift_row h i k)
  exact congrArg (fun f => Finset.fold max (Ideal.ofBits .f32 0xFF800000#32) f (Finset.univ : Finset (Fin 64))) hf

/-- The reference's row maximum (the fold from −∞ over the 64 columns, joined once more with −∞) is `rowMax`. -/
theorem ref_rowMax (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) (i : S100000.Idx) :
    val_main_call2_v2 (F := Ideal) x0 x1 x2 x3 x4 x5 i
      = Cert.Gcn.rowMax 100000 64 (val_main_v65 (F := Ideal) x0 x1 x2 x3 x4 x5) ⟨(i 0).val, (i 0).isLt⟩ := by
  refine (val_main_call2_v2_apply x0 x1 x2 x3 x4 x5 i).trans ?_
  unfold val_main_call2_v0
  refine (congrArg (FloatOps.maximumf (F := Ideal) (φ := .f32) (val_main_call2_v1 (F := Ideal) i)) (reduce_max_row _ i)).trans ?_
  exact max_negInf _

/-! ## The subtraction of the row maximum, the row sum of exponentials, the logarithm -/

/-- The maximum broadcast back over the row: at entry (p, q) it is row p's maximum. -/
theorem ref_v4 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) (p : Fin 100000) (q : Fin 64) :
    val_main_call2_v4 (F := Ideal) x0 x1 x2 x3 x4 x5 (ix2 p q) = Cert.Gcn.rowMax 100000 64 (val_main_v65 (F := Ideal) x0 x1 x2 x3 x4 x5) p := by
  refine (val_main_call2_v4_apply x0 x1 x2 x3 x4 x5 (ix2 p q)).trans ?_
  refine (val_main_call2_v3_apply x0 x1 x2 x3 x4 x5 (idx_main_call2_v4 (ix2 p q))).trans ?_
  exact ref_rowMax x0 x1 x2 x3 x4 x5 (idx_main_call2_v3 (idx_main_call2_v4 (ix2 p q)))

/-- The shifted logits: entry (p, q) less row p's maximum. -/
theorem ref_v5 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) (p : Fin 100000) (q : Fin 64) :
    val_main_call2_v5 (F := Ideal) x0 x1 x2 x3 x4 x5 (ix2 p q)
      = (val_main_v65 (F := Ideal) x0 x1 x2 x3 x4 x5) (ix2 p q) - Cert.Gcn.rowMax 100000 64 (val_main_v65 (F := Ideal) x0 x1 x2 x3 x4 x5) p := by
  refine (val_main_call2_v5_apply x0 x1 x2 x3 x4 x5 (ix2 p q)).trans ?_
  rw [ref_v4 x0 x1 x2 x3 x4 x5 p q]
  rfl

/-- The row sum from 0 of the exponentials of the shifted logits. -/
theorem ref_v7 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) (p : Fin 100000) :
    val_main_call2_v7 (F := Ideal) x0 x1 x2 x3 x4 x5 (ix1 p)
      = ∑ κ : Fin 64, Ideal.exp ((val_main_v65 (F := Ideal) x0 x1 x2 x3 x4 x5) (ix2 p κ) - Cert.Gcn.rowMax 100000 64 (val_main_v65 (F := Ideal) x0 x1 x2 x3 x4 x5) p) := by
  refine (val_main_call2_v7_apply x0 x1 x2 x3 x4 x5 (ix1 p)).trans ?_
  show Ideal.ofBits .f32 0x00000000#32 + _ = _
  rw [Ideal.ofBits_zero_f32, zero_add]
  refine Finset.sum_congr rfl fun κ _ => ?_
  have ei : idx_main_call2_v7 (ix1 p) κ = ix2 p κ :=
    funext fun a => Fin.ext (by match a with | ⟨0, _⟩ => rfl | ⟨1, _⟩ => rfl)
  rw [ei]
  refine (val_main_call2_v6_apply x0 x1 x2 x3 x4 x5 (ix2 p κ)).trans ?_
  rw [ref_v5 x0 x1 x2 x3 x4 x5 p κ]
  exact Ideal.hostUnary_exp_def (φ := .f32) _

/-- The logarithm of the row sum, broadcast back over the row. -/
theorem ref_v10 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) (p : Fin 100000) (q : Fin 64) :
    val_main_call2_v10 (F := Ideal) x0 x1 x2 x3 x4 x5 (ix2 p q)
      = Ideal.log (∑ κ : Fin 64, Ideal.exp ((val_main_v65 (F := Ideal) x0 x1 x2 x3 x4 x5) (ix2 p κ) - Cert.Gcn.rowMax 100000 64 (val_main_v65 (F := Ideal) x0 x1 x2 x3 x4 x5) p)) := by
  refine (val_main_call2_v10_apply x0 x1 x2 x3 x4 x5 (ix2 p q)).trans ?_
  refine (val_main_call2_v9_apply x0 x1 x2 x3 x4 x5 (idx_main_call2_v10 (ix2 p q))).trans ?_
  rw [val_main_call2_v8_apply x0 x1 x2 x3 x4 x5 (idx_main_call2_v10 (ix2 p q))]
  have ei : idx_main_call2_v8 (idx_main_call2_v10 (ix2 p q)) = ix1 p :=
    funext fun a => Fin.ext (by match a with | ⟨0, _⟩ => rfl)
  rw [ei, ref_v7 x0 x1 x2 x3 x4 x5 p]
  exact Ideal.hostUnary_log_def (φ := .f32) _

/-- The last stage is the row-wise log-softmax of the logits stage. -/
theorem ref_lsm (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x64, .f32⟩ : BufTy).Contents (Elt Ideal)) (x5 : (⟨S64, .f32⟩ : BufTy).Contents (Elt Ideal)) :
    val_main_v66 (F := Ideal) x0 x1 x2 x3 x4 x5 = Cert.Gcn.lsm 100000 64 (val_main_v65 (F := Ideal) x0 x1 x2 x3 x4 x5) := by
  funext j
  obtain ⟨p, q, rfl⟩ : ∃ (p : Fin 100000) (q : Fin 64), j = ix2 p q := ⟨j 0, j 1, eq_ix2 j⟩
  refine (val_main_v66_apply x0 x1 x2 x3 x4 x5 (ix2 p q)).trans ?_
  rw [Cert.Gcn.lsm_apply, ref_v5 x0 x1 x2 x3 x4 x5 p q, ref_v10 x0 x1 x2 x3 x4 x5 p q]
  rfl

end Cert.RefBridge

end
-- ==== Proof.KStages.lean ====
/-
  The kernel program's buffers at the boundaries of its host stretches and regions, at the extended reals, each read
  as the reference's own stage function of the launch arguments.

  Both programs apply the same host operations — the self-loop edge lists, the degree normalisation, and per layer the
  gather, the scaling, the scatter-add and the bias — to the same inputs; they differ in three places only: the two
  dense products and the final log-softmax, which the kernel program computes in row-tiled regions. So the contents
  are followed boundary by boundary: through a host stretch each buffer it writes is the stretch's operations of the
  contents before it, which by then are the reference's stages; out of a region the output array is the whole product
  (or the whole log-softmax) of the arrays the region found, and every other buffer is as it was.
-/
import proofs.«149497_j29832842838041_1_alg».proof.Proof.Gen.KernelIdeal.Frame
import proofs.«149497_j29832842838041_1_alg».proof.Proof.MatBlocks
import proofs.«149497_j29832842838041_1_alg».proof.Proof.SoftmaxBlocks
import proofs.«149497_j29832842838041_1_alg».proof.Proof.RefBridge
import Idealize.ShloMosaic.Lib.StableHlo.Run
import Idealize.ShloMosaic.PureOps.Ideal.Laws

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.ReadP

section Stretches

variable {F : FTy → Type} [FloatOps F]

/-! ## A stretch's operations over ANY contents `V` before it: what it writes, and what it leaves alone -/

variable (V : Valuation τ sig (Elt F))

theorem s1_v3 : after hostOps0 V (Proc.devRef .tc main_v3) = val_main_v3 (F := F) (V (Proc.devRef .tc main_arg1)) := by
  dsimp only [hostOps0]; after_results <;> rfl
theorem s1_v6 : after hostOps0 V (Proc.devRef .tc main_v6) = val_main_v6 (F := F) (V (Proc.devRef .tc main_arg1)) := by
  dsimp only [hostOps0]; after_results <;> rfl
theorem s1_v12 : after hostOps0 V (Proc.devRef .tc main_v12) = val_main_v12 (F := F) (V (Proc.devRef .tc main_arg1)) := by
  dsimp only [hostOps0]; after_results <;> rfl
theorem s1_v14 : after hostOps0 V (Proc.devRef .tc main_v14) = val_main_v14 (F := F) (V (Proc.devRef .tc main_arg1)) := by
  dsimp only [hostOps0]; after_results <;> rfl
theorem s1_cst3 : after hostOps0 V (Proc.devRef .tc main_cst_3) = val_main_cst_3 (F := F) := by
  dsimp only [hostOps0]; after_results <;> rfl

set_option maxHeartbeats 4000000 in
theorem s2_v15 (a1 : (⟨Cert.ReferenceIdeal.S2x3200000, .i32⟩ : BufTy).Contents (Elt F)) (h12 : V (Proc.devRef .tc main_v12) = val_main_v12 (F := F) a1) (h14 : V (Proc.devRef .tc main_v14) = val_main_v14 (F := F) a1)
    (hc : V (Proc.devRef .tc main_cst_3) = val_main_cst_3 (F := F)) : after hostOps0_1 V (Proc.devRef .tc main_v15) = val_main_v15 (F := F) a1 := by
  dsimp only [hostOps0_1]; after_results_simp
  rw [h12, h14, hc]
  all_goals first | rfl | (simp only [TRef.ofBuf, TRef.toBuf, cast_eq]; rfl)

set_option maxHeartbeats 4000000 in
theorem s3_v30 (a1 : (⟨Cert.ReferenceIdeal.S2x3200000, .i32⟩ : BufTy).Contents (Elt F)) (h15 : V (Proc.devRef .tc main_v15) = val_main_v15 (F := F) a1) (h3 : V (Proc.devRef .tc main_v3) = val_main_v3 (F := F) a1)
    (h6 : V (Proc.devRef .tc main_v6) = val_main_v6 (F := F) a1) : after hostOps0_2 V (Proc.devRef .tc main_v30) = val_main_v30 (F := F) a1 := by
  dsimp only [hostOps0_2]; after_results_simp
  rw [h15, h3, h6]
  all_goals rfl

set_option maxHeartbeats 4000000 in
theorem s5_v47 (a0 : (⟨Cert.ReferenceIdeal.S100000x512, .f32⟩ : BufTy).Contents (Elt F)) (a1 : (⟨Cert.ReferenceIdeal.S2x3200000, .i32⟩ : BufTy).Contents (Elt F)) (a2 : (⟨Cert.ReferenceIdeal.S512x16, .f32⟩ : BufTy).Contents (Elt F)) (a3 : (⟨Cert.ReferenceIdeal.S16, .f32⟩ : BufTy).Contents (Elt F)) (h31 : V (Proc.devRef .tc main_v31) = val_main_v31 (F := F) a0 a2) (h3 : V (Proc.devRef .tc main_v3) = val_main_v3 (F := F) a1)
    (h6 : V (Proc.devRef .tc main_v6) = val_main_v6 (F := F) a1) (h30 : V (Proc.devRef .tc main_v30) = val_main_v30 (F := F) a1) (hb : V (Proc.devRef .tc main_arg3) = a3) :
    after hostOps1 V (Proc.devRef .tc main_v47) = val_main_v47 (F := F) a0 a1 a2 a3 := by
  dsimp only [hostOps1]; after_results_simp
  rw [h31, h3, h6, h30, hb]
  all_goals rfl

set_option maxHeartbeats 4000000 in
theorem s6_v48 (a0 : (⟨Cert.ReferenceIdeal.S100000x512, .f32⟩ : BufTy).Contents (Elt F)) (a1 : (⟨Cert.ReferenceIdeal.S2x3200000, .i32⟩ : BufTy).Contents (Elt F)) (a2 : (⟨Cert.ReferenceIdeal.S512x16, .f32⟩ : BufTy).Contents (Elt F)) (a3 : (⟨Cert.ReferenceIdeal.S16, .f32⟩ : BufTy).Contents (Elt F)) (h47 : V (Proc.devRef .tc main_v47) = val_main_v47 (F := F) a0 a1 a2 a3) :
    after hostOps1_1 V (Proc.devRef .tc main_v48) = val_main_v48 (F := F) a0 a1 a2 a3 := by
  dsimp only [hostOps1_1]; after_results_simp
  rw [h47]
  all_goals first | rfl | (simp only [TRef.ofBuf, TRef.toBuf, cast_eq]; rfl)

set_option maxHeartbeats 4000000 in
theorem s8_v65 (a0 : (⟨Cert.ReferenceIdeal.S100000x512, .f32⟩ : BufTy).Contents (Elt F)) (a1 : (⟨Cert.ReferenceIdeal.S2x3200000, .i32⟩ : BufTy).Contents (Elt F)) (a2 : (⟨Cert.ReferenceIdeal.S512x16, .f32⟩ : BufTy).Contents (Elt F)) (a3 : (⟨Cert.ReferenceIdeal.S16, .f32⟩ : BufTy).Contents (Elt F)) (a4 : (⟨Cert.ReferenceIdeal.S16x64, .f32⟩ : BufTy).Contents (Elt F)) (a5 : (⟨Cert.ReferenceIdeal.S64, .f32⟩ : BufTy).Contents (Elt F)) (h49 : V (Proc.devRef .tc main_v49) = val_main_v49 (F := F) a0 a1 a2 a3 a4) (h3 : V (Proc.devRef .tc main_v3) = val_main_v3 (F := F) a1)
    (h6 : V (Proc.devRef .tc main_v6) = val_main_v6 (F := F) a1) (h30 : V (Proc.devRef .tc main_v30) = val_main_v30 (F := F) a1) (hb : V (Proc.devRef .tc main_arg5) = a5) :
    after hostOps2 V (Proc.devRef .tc main_v65) = val_main_v65 (F := F) a0 a1 a2 a3 a4 a5 := by
  dsimp only [hostOps2]; after_results_simp
  rw [h49, h3, h6, h30, hb]
  all_goals rfl

/-! What the stretches do not write -/

set_option maxHeartbeats 4000000 in
theorem k123_arg0 : after hostOps0_2 (after hostOps0_1 (after hostOps0 (V))) (Proc.devRef .tc main_arg0) = V (Proc.devRef .tc main_arg0) := by
  dsimp only [hostOps0, hostOps0_1, hostOps0_2]; after_results_simp
set_option maxHeartbeats 4000000 in
theorem k123_arg2 : after hostOps0_2 (after hostOps0_1 (after hostOps0 (V))) (Proc.devRef .tc main_arg2) = V (Proc.devRef .tc main_arg2) := by
  dsimp only [hostOps0, hostOps0_1, hostOps0_2]; after_results_simp
set_option maxHeartbeats 4000000 in
theorem k123_arg3 : after hostOps0_2 (after hostOps0_1 (after hostOps0 (V))) (Proc.devRef .tc main_arg3) = V (Proc.devRef .tc main_arg3) := by
  dsimp only [hostOps0, hostOps0_1, hostOps0_2]; after_results_simp
set_option maxHeartbeats 4000000 in
theorem k123_arg4 : after hostOps0_2 (after hostOps0_1 (after hostOps0 (V))) (Proc.devRef .tc main_arg4) = V (Proc.devRef .tc main_arg4) := by
  dsimp only [hostOps0, hostOps0_1, hostOps0_2]; after_results_simp
set_option maxHeartbeats 4000000 in
theorem k123_arg5 : after hostOps0_2 (after hostOps0_1 (after hostOps0 (V))) (Proc.devRef .tc main_arg5) = V (Proc.devRef .tc main_arg5) := by
  dsimp only [hostOps0, hostOps0_1, hostOps0_2]; after_results_simp
set_option maxHeartbeats 4000000 in
theorem k23_v3 : after hostOps0_2 (after hostOps0_1 (V)) (Proc.devRef .tc main_v3) = V (Proc.devRef .tc main_v3) := by
  dsimp only [hostOps0_1, hostOps0_2]; after_results_simp
set_option maxHeartbeats 4000000 in
theorem k23_v6 : after hostOps0_2 (after hostOps0_1 (V)) (Proc.devRef .tc main_v6) = V (Proc.devRef .tc main_v6) := by
  dsimp only [hostOps0_1, hostOps0_2]; after_results_simp
set_option maxHeartbeats 4000000 in
theorem k56_v3 : after hostOps1_1 (after hostOps1 (V)) (Proc.devRef .tc main_v3) = V (Proc.devRef .tc main_v3) := by
  dsimp only [hostOps1, hostOps1_1]; after_results_simp
set_option maxHeartbeats 4000000 in
theorem k56_v6 : after hostOps1_1 (after hostOps1 (V)) (Proc.devRef .tc main_v6) = V (Proc.devRef .tc main_v6) := by
  dsimp only [hostOps1, hostOps1_1]; after_results_simp
set_option maxHeartbeats 4000000 in
theorem k56_v30 : after hostOps1_1 (after hostOps1 (V)) (Proc.devRef .tc main_v30) = V (Proc.devRef .tc main_v30) := by
  dsimp only [hostOps1, hostOps1_1]; after_results_simp
set_option maxHeartbeats 4000000 in
theorem k56_arg4 : after hostOps1_1 (after hostOps1 (V)) (Proc.devRef .tc main_arg4) = V (Proc.devRef .tc main_arg4) := by
  dsimp only [hostOps1, hostOps1_1]; after_results_simp
set_option maxHeartbeats 4000000 in
theorem k56_arg5 : after hostOps1_1 (after hostOps1 (V)) (Proc.devRef .tc main_arg5) = V (Proc.devRef .tc main_arg5) := by
  dsimp only [hostOps1, hostOps1_1]; after_results_simp
set_option maxHeartbeats 4000000 in
theorem k2_v3 : after hostOps0_1 (V) (Proc.devRef .tc main_v3) = V (Proc.devRef .tc main_v3) := by
  dsimp only [hostOps0_1]; after_results_simp
set_option maxHeartbeats 4000000 in
theorem k2_v6 : after hostOps0_1 (V) (Proc.devRef .tc main_v6) = V (Proc.devRef .tc main_v6) := by
  dsimp only [hostOps0_1]; after_results_simp
end Stretches

/-! # The boundaries of the kernel program's run, at the extended reals -/

variable (m : (ℓ : Loc nD τ sig) → Buf (Elt Ideal) ℓ) (ρ : Dev nD → PrngReg)

/-- The six arguments as launched, on core `c`. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## Before region 0: the edge lists with self-loops, the edge weights, and the arguments as launched -/

theorem w3_v3 (c : Dev nD) : W3 m ρ c (Proc.devRef .tc main_v3) = val_main_v3 (F := Ideal) (x1 m c) :=
  (k23_v3 (F := Ideal) (W1 m ρ c)).trans (s1_v3 (F := Ideal) (W0 m ρ c))
theorem w3_v6 (c : Dev nD) : W3 m ρ c (Proc.devRef .tc main_v6) = val_main_v6 (F := Ideal) (x1 m c) :=
  (k23_v6 (F := Ideal) (W1 m ρ c)).trans (s1_v6 (F := Ideal) (W0 m ρ c))
theorem w2_v15 (c : Dev nD) : W2 m ρ c (Proc.devRef .tc main_v15) = val_main_v15 (F := Ideal) (x1 m c) :=
  s2_v15 (F := Ideal) (W1 m ρ c) (x1 m c) (s1_v12 (F := Ideal) (W0 m ρ c)) (s1_v14 (F := Ideal) (W0 m ρ c)) (s1_cst3 (F := Ideal) (W0 m ρ c))
theorem w3_v30 (c : Dev nD) : W3 m ρ c (Proc.devRef .tc main_v30) = val_main_v30 (F := Ideal) (x1 m c) :=
  s3_v30 (F := Ideal) (W2 m ρ c) (x1 m c) (w2_v15 m ρ c)
    ((k2_v3 (F := Ideal) (W1 m ρ c)).trans (s1_v3 (F := Ideal) (W0 m ρ c))) ((k2_v6 (F := Ideal) (W1 m ρ c)).trans (s1_v6 (F := Ideal) (W0 m ρ c)))
theorem w3_arg0 (c : Dev nD) : W3 m ρ c (Proc.devRef .tc main_arg0) = x0 m c := k123_arg0 (F := Ideal) (W0 m ρ c)
theorem w3_arg2 (c : Dev nD) : W3 m ρ c (Proc.devRef .tc main_arg2) = x2 m c := k123_arg2 (F := Ideal) (W0 m ρ c)
theorem w3_arg3 (c : Dev nD) : W3 m ρ c (Proc.devRef .tc main_arg3) = x3 m c := k123_arg3 (F := Ideal) (W0 m ρ c)
theorem w3_arg4 (c : Dev nD) : W3 m ρ c (Proc.devRef .tc main_arg4) = x4 m c := k123_arg4 (F := Ideal) (W0 m ρ c)
theorem w3_arg5 (c : Dev nD) : W3 m ρ c (Proc.devRef .tc main_arg5) = x5 m c := k123_arg5 (F := Ideal) (W0 m ρ c)
/-! ## Out of region 0: the first dense product, x · W1 -/

theorem w4_v31 (c : Dev nD) : W4 m ρ c (Proc.devRef .tc main_v31) = val_main_v31 (F := Ideal) (x0 m c) (x2 m c) := by
  refine (W4_arr m ρ c 2).trans ?_
  rw [MatBlocks.arr0 (V3 m ρ) c]
  show Cert.Gcn.mm 100000 512 16 (W3 m ρ c (Proc.devRef .tc main_arg0)) (W3 m ρ c (Proc.devRef .tc main_arg2)) = _
  rw [w3_arg0, w3_arg2]
  exact (Cert.RefBridge.ref_mm1 _ _).symm

theorem w4_v3 (c : Dev nD) : W4 m ρ c (Proc.devRef .tc main_v3) = val_main_v3 (F := Ideal) (x1 m c) :=
  (W4_of_ne m ρ c main_v3 (by decide)).trans (w3_v3 m ρ c)
theorem w4_v6 (c : Dev nD) : W4 m ρ c (Proc.devRef .tc main_v6) = val_main_v6 (F := Ideal) (x1 m c) :=
  (W4_of_ne m ρ c main_v6 (by decide)).trans (w3_v6 m ρ c)
theorem w4_v30 (c : Dev nD) : W4 m ρ c (Proc.devRef .tc main_v30) = val_main_v30 (F := Ideal) (x1 m c) :=
  (W4_of_ne m ρ c main_v30 (by decide)).trans (w3_v30 m ρ c)
theorem w4_arg3 (c : Dev nD) : W4 m ρ c (Proc.devRef .tc main_arg3) = x3 m c :=
  (W4_of_ne m ρ c main_arg3 (by decide)).trans (w3_arg3 m ρ c)
theorem w4_arg4 (c : Dev nD) : W4 m ρ c (Proc.devRef .tc main_arg4) = x4 m c :=
  (W4_of_ne m ρ c main_arg4 (by decide)).trans (w3_arg4 m ρ c)
theorem w4_arg5 (c : Dev nD) : W4 m ρ c (Proc.devRef .tc main_arg5) = x5 m c :=
  (W4_of_ne m ρ c main_arg5 (by decide)).trans (w3_arg5 m ρ c)

/-! ## Between regions 0 and 1: the first layer's aggregation, bias and relu -/

theorem w6_v48 (c : Dev nD) :
    W6 m ρ c (Proc.devRef .tc main_v48) = val_main_v48 (F := Ideal) (x0 m c) (x1 m c) (x2 m c) (x3 m c) :=
  s6_v48 (F := Ideal) (W5 m ρ c) (x0 m c) (x1 m c) (x2 m c) (x3 m c)
    (s5_v47 (F := Ideal) (W4 m ρ c) (x0 m c) (x1 m c) (x2 m c) (x3 m c) (w4_v31 m ρ c) (w4_v3 m ρ c) (w4_v6 m ρ c) (w4_v30 m ρ c) (w4_arg3 m ρ c))
theorem w6_v3 (c : Dev nD) : W6 m ρ c (Proc.devRef .tc main_v3) = val_main_v3 (F := Ideal) (x1 m c) :=
  (k56_v3 (F := Ideal) (W4 m ρ c)).trans (w4_v3 m ρ c)
theorem w6_v6 (c : Dev nD) : W6 m ρ c (Proc.devRef .tc main_v6) = val_main_v6 (F := Ideal) (x1 m c) :=
  (k56_v6 (F := Ideal) (W4 m ρ c)).trans (w4_v6 m ρ c)
theorem w6_v30 (c : Dev nD) : W6 m ρ c (Proc.devRef .tc main_v30) = val_main_v30 (F := Ideal) (x1 m c) :=
  (k56_v30 (F := Ideal) (W4 m ρ c)).trans (w4_v30 m ρ c)
theorem w6_arg4 (c : Dev nD) : W6 m ρ c (Proc.devRef .tc main_arg4) = x4 m c :=
  (k56_arg4 (F := Ideal) (W4 m ρ c)).trans (w4_arg4 m ρ c)
theorem w6_arg5 (c : Dev nD) : W6 m ρ c (Proc.devRef .tc main_arg5) = x5 m c :=
  (k56_arg5 (F := Ideal) (W4 m ρ c)).trans (w4_arg5 m ρ c)

/-! ## Out of region 1: the second dense product, relu(…) · W2 -/

theorem w7_v49 (c : Dev nD) :
    W7 m ρ c (Proc.devRef .tc main_v49) = val_main_v49 (F := Ideal) (x0 m c) (x1 m c) (x2 m c) (x3 m c) (x4 m c) := by
  refine (W7_arr m ρ c 2).trans ?_
  rw [MatBlocks.arr1 (V6 m ρ) c]
  show Cert.Gcn.mm 100000 16 64 (W6 m ρ c (Proc.devRef .tc main_v48)) (W6 m ρ c (Proc.devRef .tc main_arg4)) = _
  rw [w6_v48, w6_arg4]
  exact (Cert.RefBridge.ref_mm2 _ _ _ _ _).symm

theorem w7_v3 (c : Dev nD) : W7 m ρ c (Proc.devRef .tc main_v3) = val_main_v3 (F := Ideal) (x1 m c) :=
  (W7_of_ne m ρ c main_v3 (by decide)).trans (w6_v3 m ρ c)
theorem w7_v6 (c : Dev nD) : W7 m ρ c (Proc.devRef .tc main_v6) = val_main_v6 (F := Ideal) (x1 m c) :=
  (W7_of_ne m ρ c main_v6 (by decide)).trans (w6_v6 m ρ c)
theorem w7_v30 (c : Dev nD) : W7 m ρ c (Proc.devRef .tc main_v30) = val_main_v30 (F := Ideal) (x1 m c) :=
  (W7_of_ne m ρ c main_v30 (by decide)).trans (w6_v30 m ρ c)
theorem w7_arg5 (c : Dev nD) : W7 m ρ c (Proc.devRef .tc main_arg5) = x5 m c :=
  (W7_of_ne m ρ c main_arg5 (by decide)).trans (w6_arg5 m ρ c)

/-! ## Between regions 1 and 2: the second layer's aggregation and bias -/

theorem w8_v65 (c : Dev nD) :
    W8 m ρ c (Proc.devRef .tc main_v65) = val_main_v65 (F := Ideal) (x0 m c) (x1 m c) (x2 m c) (x3 m c) (x4 m c) (x5 m c) :=
  s8_v65 (F := Ideal) (W7 m ρ c) (x0 m c) (x1 m c) (x2 m c) (x3 m c) (x4 m c) (x5 m c) (w7_v49 m ρ c) (w7_v3 m ρ c) (w7_v6 m ρ c) (w7_v30 m ρ c) (w7_arg5 m ρ c)

/-! ## Out of region 2: the log-softmax of the logits — the program's result -/

/-- The kernel program's result buffer at the end of @main is the reference's last stage of the launch arguments. -/
theorem w9_v66 (c : Dev nD) :
    W9 m ρ c (Proc.devRef .tc main_v66) = val_main_v66 (F := Ideal) (x0 m c) (x1 m c) (x2 m c) (x3 m c) (x4 m c) (x5 m c) := by
  refine (W9_arr m ρ c 1).trans ?_
  rw [SoftmaxBlocks.arr2 (V8 m ρ) c]
  show Cert.Gcn.lsm 100000 64 (W8 m ρ c (Proc.devRef .tc main_v65)) = _
  rw [w8_v65]
  exact (Cert.RefBridge.ref_lsm _ _ _ _ _ _).symm

end Cert.KernelIdeal.Stages

end
-- ==== Proof.RefStages.lean ====
/-
  The reference program's run, read stage by stage: @main is one hundred host operations in a row, so the contents of
  each buffer after the run are the operations' composition over the launch arguments. The composition is followed
  through nine stretches — the edge lists with self-loops and the degrees; the guarded inverse square root; the edge
  weights; the first dense product; the first layer's aggregation and bias; the relu; the second dense product; the
  second layer's aggregation and bias; the log-softmax — each buffer a stretch writes being that stretch's operations
  of the stage functions the stretches before it left, and every buffer it does not write being as it was.
-/
import proofs.«149497_j29832842838041_1_alg».proof.Proof.RefRead
import Idealize.ShloMosaic.Lib.Pipeline.Frame
import Idealize.ShloMosaic.Lib.StableHlo.Run

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## @main's operations, stretch by stretch -/

/-- The edge lists with self-loops, the degrees, and the power and the comparison the guard selects between. -/
abbrev o1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32) ]

/-- The guarded inverse square root of the degrees. -/
abbrev o2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select ]

/-- The edge weights: the two endpoints' normalisations, gathered and multiplied. -/
abbrev o3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first dense product. -/
abbrev o4 : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The first layer: gather, scale, scatter-add, bias. -/
abbrev o5 : List (HloOp τ sig (Elt F)) :=
  [ nullary main_c_7 (constantI S_ 32 0#32),
    unary main_c_7 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- The relu. -/
abbrev o6 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- The second dense product. -/
abbrev o7 : List (HloOp τ sig (Elt F)) :=
  [ binary main_v48 main_arg4 main_v49 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)) ]

/-- The second layer: gather, scale, scatter-add, bias. -/
abbrev o8 : List (HloOp τ sig (Elt F)) :=
  [ nullary main_c_10 (constantI S_ 32 0#32),
    unary main_c_10 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v49 main_v55 main_v56 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v30 main_v57 (broadcastInDim S3300000x1 ![0] bcast_S3300000_S3300000x1_0 : (⟨S3300000, .f32⟩ : BufTy).Contents (Elt F) → (⟨S3300000x1, .f32⟩ : BufTy).Contents (Elt F)),
    unary main_v57 main_v58 (broadcastInDim S3300000x64 ![0, 1] bcast_S3300000x1_S3300000x64_0_1 : (⟨S3300000x1, .f32⟩ : BufTy).Contents (Elt F) → (⟨S3300000x64, .f32⟩ : BufTy).Contents (Elt F)),
    binary main_v56 main_v58 main_v59 (mulf : (⟨S3300000x64, .f32⟩ : BufTy).Contents (Elt F) → (⟨S3300000x64, .f32⟩ : BufTy).Contents (Elt F) → (⟨S3300000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)) ]

/-- The log-softmax, first third: each row's maximum, folded from −∞ and joined once more with −∞. -/
abbrev o9a : List (HloOp τ sig (Elt F)) :=
  [ TRef.nullary (TRef.of (T := ⟨S_, .f32⟩) main_call2_cst) (constant S_ .f32 0xFF800000#32),
    TRef.binary (TRef.of (T := ⟨S100000x64, .f32⟩) main_v65) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The log-softmax, second third: the rows shifted by their maxima, and the exponentials. -/
abbrev o9b : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v65) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32) ]

/-- The log-softmax, last third: the row sums from 0, their logarithms, and the second subtraction. -/
abbrev o9c : List (HloOp τ sig (Elt F)) :=
  [ TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v66) subf ]

/-- @main's operation list is the stretches in a row. -/
theorem ops_eq : (ValueP.ops : List (HloOp τ sig (Elt F))) = o1 ++ (o2 ++ (o3 ++ (o4 ++ (o5 ++ (o6 ++ (o7 ++ (o8 ++ (o9a ++ (o9b ++ o9c))))))))) := rfl

section Stretches

/-! ## A stretch's operations over ANY contents `V` before it: what it writes, and what it leaves alone -/

variable (V : Valuation τ sig (Elt F))

theorem s1_v3 : after o1 V (Proc.devRef .tc main_v3) = val_main_v3 (F := F) (V (Proc.devRef .tc main_arg1)) := by
  dsimp only [o1]; after_results <;> rfl
theorem s1_v6 : after o1 V (Proc.devRef .tc main_v6) = val_main_v6 (F := F) (V (Proc.devRef .tc main_arg1)) := by
  dsimp only [o1]; after_results <;> rfl
theorem s1_v12 : after o1 V (Proc.devRef .tc main_v12) = val_main_v12 (F := F) (V (Proc.devRef .tc main_arg1)) := by
  dsimp only [o1]; after_results <;> rfl
theorem s1_v14 : after o1 V (Proc.devRef .tc main_v14) = val_main_v14 (F := F) (V (Proc.devRef .tc main_arg1)) := by
  dsimp only [o1]; after_results <;> rfl
theorem s1_cst3 : after o1 V (Proc.devRef .tc main_cst_3) = val_main_cst_3 (F := F) := by
  dsimp only [o1]; after_results <;> rfl

set_option maxHeartbeats 4000000 in
theorem s2_v15 (a1 : (⟨S2x3200000, .i32⟩ : BufTy).Contents (Elt F)) (h12 : V (Proc.devRef .tc main_v12) = val_main_v12 (F := F) a1) (h14 : V (Proc.devRef .tc main_v14) = val_main_v14 (F := F) a1)
    (hc : V (Proc.devRef .tc main_cst_3) = val_main_cst_3 (F := F)) : after o2 V (Proc.devRef .tc main_v15) = val_main_v15 (F := F) a1 := by
  dsimp only [o2]; after_results_simp
  rw [h12, h14, hc]
  all_goals first | rfl | (simp only [TRef.ofBuf, TRef.toBuf, cast_eq]; rfl)

set_option maxHeartbeats 4000000 in
theorem s3_v30 (a1 : (⟨S2x3200000, .i32⟩ : BufTy).Contents (Elt F)) (h15 : V (Proc.devRef .tc main_v15) = val_main_v15 (F := F) a1) (h3 : V (Proc.devRef .tc main_v3) = val_main_v3 (F := F) a1)
    (h6 : V (Proc.devRef .tc main_v6) = val_main_v6 (F := F) a1) : after o3 V (Proc.devRef .tc main_v30) = val_main_v30 (F := F) a1 := by
  dsimp only [o3]; after_results_simp
  rw [h15, h3, h6]
  all_goals rfl

theorem s4_v31 : after o4 V (Proc.devRef .tc main_v31) = val_main_v31 (F := F) (V (Proc.devRef .tc main_arg0)) (V (Proc.devRef .tc main_arg2)) := by
  dsimp only [o4]; after_results <;> rfl

set_option maxHeartbeats 4000000 in
theorem s5_v47 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (h31 : V (Proc.devRef .tc main_v31) = val_main_v31 (F := F) a0 a2) (h3 : V (Proc.devRef .tc main_v3) = val_main_v3 (F := F) a1)
    (h6 : V (Proc.devRef .tc main_v6) = val_main_v6 (F := F) a1) (h30 : V (Proc.devRef .tc main_v30) = val_main_v30 (F := F) a1) (hb : V (Proc.devRef .tc main_arg3) = a3) :
    after o5 V (Proc.devRef .tc main_v47) = val_main_v47 (F := F) a0 a1 a2 a3 := by
  dsimp only [o5]; after_results_simp
  rw [h31, h3, h6, h30, hb]
  all_goals rfl

set_option maxHeartbeats 4000000 in
theorem s6_v48 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (h47 : V (Proc.devRef .tc main_v47) = val_main_v47 (F := F) a0 a1 a2 a3) :
    after o6 V (Proc.devRef .tc main_v48) = val_main_v48 (F := F) a0 a1 a2 a3 := by
  dsimp only [o6]; after_results_simp
  rw [h47]
  all_goals first | rfl | (simp only [TRef.ofBuf, TRef.toBuf, cast_eq]; rfl)

theorem s7_v49 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (h48 : V (Proc.devRef .tc main_v48) = val_main_v48 (F := F) a0 a1 a2 a3) :
    after o7 V (Proc.devRef .tc main_v49) = val_main_v49 (F := F) a0 a1 a2 a3 (V (Proc.devRef .tc main_arg4)) := by
  dsimp only [o7]; after_results
  rw [h48]
  all_goals rfl

set_option maxHeartbeats 4000000 in
theorem s8_v65 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (a4 : (⟨S16x64, .f32⟩ : BufTy).Contents (Elt F)) (a5 : (⟨S64, .f32⟩ : BufTy).Contents (Elt F)) (h49 : V (Proc.devRef .tc main_v49) = val_main_v49 (F := F) a0 a1 a2 a3 a4) (h3 : V (Proc.devRef .tc main_v3) = val_main_v3 (F := F) a1)
    (h6 : V (Proc.devRef .tc main_v6) = val_main_v6 (F := F) a1) (h30 : V (Proc.devRef .tc main_v30) = val_main_v30 (F := F) a1) (hb : V (Proc.devRef .tc main_arg5) = a5) :
    after o8 V (Proc.devRef .tc main_v65) = val_main_v65 (F := F) a0 a1 a2 a3 a4 a5 := by
  dsimp only [o8]; after_results_simp
  rw [h49, h3, h6, h30, hb]
  all_goals rfl

/-! A typed reference carries contents along the equality of its buffer's type with the value's type, an equality true by
    computation: on any contents the carrying is the identity. -/
private theorem tb_cst0 (v : (⟨S_, .f32⟩ : BufTy).Contents (Elt F)) : (TRef.of (T := ⟨S_, .f32⟩) main_call2_cst_0).toBuf (Val := Elt F) v = v := rfl
private theorem ob_cst0 (v : (⟨S_, .f32⟩ : BufTy).Contents (Elt F)) : (TRef.of (T := ⟨S_, .f32⟩) main_call2_cst_0).ofBuf (Val := Elt F) v = v := rfl
private theorem ob_v65 (v : (⟨S100000x64, .f32⟩ : BufTy).Contents (Elt F)) : (TRef.of (T := ⟨S100000x64, .f32⟩) main_v65).ofBuf (Val := Elt F) v = v := rfl
private theorem tb_c0 (v : (⟨S100000, .f32⟩ : BufTy).Contents (Elt F)) : (TRef.of (T := ⟨S100000, .f32⟩) main_call2_v0).toBuf (Val := Elt F) v = v := rfl
private theorem ob_c0 (v : (⟨S100000, .f32⟩ : BufTy).Contents (Elt F)) : (TRef.of (T := ⟨S100000, .f32⟩) main_call2_v0).ofBuf (Val := Elt F) v = v := rfl
private theorem tb_c1 (v : (⟨S100000, .f32⟩ : BufTy).Contents (Elt F)) : (TRef.of (T := ⟨S100000, .f32⟩) main_call2_v1).toBuf (Val := Elt F) v = v := rfl
private theorem ob_c1 (v : (⟨S100000, .f32⟩ : BufTy).Contents (Elt F)) : (TRef.of (T := ⟨S100000, .f32⟩) main_call2_v1).ofBuf (Val := Elt F) v = v := rfl
private theorem tb_c2 (v : (⟨S100000, .f32⟩ : BufTy).Contents (Elt F)) : (TRef.of (T := ⟨S100000, .f32⟩) main_call2_v2).toBuf (Val := Elt F) v = v := rfl

set_option maxHeartbeats 4000000 in
theorem s9a_v2 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (a4 : (⟨S16x64, .f32⟩ : BufTy).Contents (Elt F)) (a5 : (⟨S64, .f32⟩ : BufTy).Contents (Elt F)) (h65 : V (Proc.devRef .tc main_v65) = val_main_v65 (F := F) a0 a1 a2 a3 a4 a5) :
    after o9a V (Proc.devRef .tc main_call2_v2) = val_main_call2_v2 (F := F) a0 a1 a2 a3 a4 a5 := by
  dsimp only [o9a]; after_results
  rw [tb_c2, ob_c1, tb_c1, ob_cst0, tb_cst0, ob_c0, tb_c0, ob_v65]
  dsimp only
  rw [h65]
  unfold val_main_call2_v2 val_main_call2_v1 val_main_call2_v0 val_main_call2_cst_0 val_main_call2_cst
  rfl

set_option maxHeartbeats 4000000 in
theorem s9b_v5 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (a4 : (⟨S16x64, .f32⟩ : BufTy).Contents (Elt F)) (a5 : (⟨S64, .f32⟩ : BufTy).Contents (Elt F)) (h65 : V (Proc.devRef .tc main_v65) = val_main_v65 (F := F) a0 a1 a2 a3 a4 a5)
    (h2 : V (Proc.devRef .tc main_call2_v2) = val_main_call2_v2 (F := F) a0 a1 a2 a3 a4 a5) :
    after o9b V (Proc.devRef .tc main_call2_v5) = val_main_call2_v5 (F := F) a0 a1 a2 a3 a4 a5 := by
  dsimp only [o9b]; after_results_simp
  rw [h65, h2]
  all_goals first | rfl | (simp only [TRef.ofBuf, TRef.toBuf, cast_eq]; rfl)

set_option maxHeartbeats 4000000 in
theorem s9b_v6 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (a4 : (⟨S16x64, .f32⟩ : BufTy).Contents (Elt F)) (a5 : (⟨S64, .f32⟩ : BufTy).Contents (Elt F)) (h65 : V (Proc.devRef .tc main_v65) = val_main_v65 (F := F) a0 a1 a2 a3 a4 a5)
    (h2 : V (Proc.devRef .tc main_call2_v2) = val_main_call2_v2 (F := F) a0 a1 a2 a3 a4 a5) :
    after o9b V (Proc.devRef .tc main_call2_v6) = val_main_call2_v6 (F := F) a0 a1 a2 a3 a4 a5 := by
  dsimp only [o9b]; after_results_simp
  rw [h65, h2]
  all_goals first | rfl | (simp only [TRef.ofBuf, TRef.toBuf, cast_eq]; rfl)

set_option maxHeartbeats 4000000 in
theorem s9b_cst1 : after o9b V (Proc.devRef .tc main_call2_cst_1) = val_main_call2_cst_1 (F := F) := by
  dsimp only [o9b]; after_results_simp
  all_goals first | rfl | (simp only [TRef.ofBuf, TRef.toBuf, cast_eq]; rfl)

set_option maxHeartbeats 4000000 in
theorem s9c_v66 (a0 : (⟨S100000x512, .f32⟩ : BufTy).Contents (Elt F)) (a1 : (⟨S2x3200000, .i32⟩ : BufTy).Contents (Elt F)) (a2 : (⟨S512x16, .f32⟩ : BufTy).Contents (Elt F)) (a3 : (⟨S16, .f32⟩ : BufTy).Contents (Elt F)) (a4 : (⟨S16x64, .f32⟩ : BufTy).Contents (Elt F)) (a5 : (⟨S64, .f32⟩ : BufTy).Contents (Elt F)) (h5 : V (Proc.devRef .tc main_call2_v5) = val_main_call2_v5 (F := F) a0 a1 a2 a3 a4 a5)
    (h6 : V (Proc.devRef .tc main_call2_v6) = val_main_call2_v6 (F := F) a0 a1 a2 a3 a4 a5)
    (hc : V (Proc.devRef .tc main_call2_cst_1) = val_main_call2_cst_1 (F := F)) :
    after o9c V (Proc.devRef .tc main_v66) = val_main_v66 (F := F) a0 a1 a2 a3 a4 a5 := by
  dsimp only [o9c]; after_results_simp
  rw [h5, h6, hc]
  all_goals first | rfl | (simp only [TRef.ofBuf, TRef.toBuf, cast_eq]; rfl)

set_option maxHeartbeats 4000000 in
theorem k9a_v65 : after o9a V (Proc.devRef .tc main_v65) = V (Proc.devRef .tc main_v65) := by
  dsimp only [o9a]; after_results_simp

/-! What the stretches do not write -/

set_option maxHeartbeats 4000000 in
theorem k123_arg0 : after o3 (after o2 (after o1 (V))) (Proc.devRef .tc main_arg0) = V (Proc.devRef .tc main_arg0) := by
  dsimp only [o1, o2, o3]; after_results_simp
set_option maxHeartbeats 4000000 in
theorem k123_arg2 : after o3 (after o2 (after o1 (V))) (Proc.devRef .tc main_arg2) = V (Proc.devRef .tc main_arg2) := by
  dsimp only [o1, o2, o3]; after_results_simp
set_option maxHeartbeats 4000000 in
theorem k123_arg3 : after o3 (after o2 (after o1 (V))) (Proc.devRef .tc main_arg3) = V (Proc.devRef .tc main_arg3) := by
  dsimp only [o1, o2, o3]; after_results_simp
set_option maxHeartbeats 4000000 in
theorem k123_arg4 : after o3 (after o2 (after o1 (V))) (Proc.devRef .tc main_arg4) = V (Proc.devRef .tc main_arg4) := by
  dsimp only [o1, o2, o3]; after_results_simp
set_option maxHeartbeats 4000000 in
theorem k123_arg5 : after o3 (after o2 (after o1 (V))) (Proc.devRef .tc main_arg5) = V (Proc.devRef .tc main_arg5) := by
  dsimp only [o1, o2, o3]; after_results_simp
set_option maxHeartbeats 4000000 in
theorem k23_v3 : after o3 (after o2 (V)) (Proc.devRef .tc main_v3) = V (Proc.devRef .tc main_v3) := by
  dsimp only [o2, o3]; after_results_simp
set_option maxHeartbeats 4000000 in
theorem k23_v6 : after o3 (after o2 (V)) (Proc.devRef .tc main_v6) = V (Proc.devRef .tc main_v6) := by
  dsimp only [o2, o3]; after_results_simp
set_option maxHeartbeats 4000000 in
theorem k4_v3 : after o4 (V) (Proc.devRef .tc main_v3) = V (Proc.devRef .tc main_v3) := by
  dsimp only [o4]; after_results_simp
set_option maxHeartbeats 4000000 in
theorem k4_v6 : after o4 (V) (Proc.devRef .tc main_v6) = V (Proc.devRef .tc main_v6) := by
  dsimp only [o4]; after_results_simp
set_option maxHeartbeats 4000000 in
theorem k4_v30 : after o4 (V) (Proc.devRef .tc main_v30) = V (Proc.devRef .tc main_v30) := by
  dsimp only [o4]; after_results_simp
set_option maxHeartbeats 4000000 in
theorem k4_arg3 : after o4 (V) (Proc.devRef .tc main_arg3) = V (Proc.devRef .tc main_arg3) := by
  dsimp only [o4]; after_results_simp
set_option maxHeartbeats 4000000 in
theorem k4_arg4 : after o4 (V) (Proc.devRef .tc main_arg4) = V (Proc.devRef .tc main_arg4) := by
  dsimp only [o4]; after_results_simp
set_option maxHeartbeats 4000000 in
theorem k4_arg5 : after o4 (V) (Proc.devRef .tc main_arg5) = V (Proc.devRef .tc main_arg5) := by
  dsimp only [o4]; after_results_simp
set_option maxHeartbeats 4000000 in
theorem k56_v3 : after o6 (after o5 (V)) (Proc.devRef .tc main_v3) = V (Proc.devRef .tc main_v3) := by
  dsimp only [o5, o6]; after_results_simp
set_option maxHeartbeats 4000000 in
theorem k56_v6 : after o6 (after o5 (V)) (Proc.devRef .tc main_v6) = V (Proc.devRef .tc main_v6) := by
  dsimp only [o5, o6]; after_results_simp
set_option maxHeartbeats 4000000 in
theorem k56_v30 : after o6 (after o5 (V)) (Proc.devRef .tc main_v30) = V (Proc.devRef .tc main_v30) := by
  dsimp only [o5, o6]; after_results_simp
set_option maxHeartbeats 4000000 in
theorem k56_arg4 : after o6 (after o5 (V)) (Proc.devRef .tc main_arg4) = V (Proc.devRef .tc main_arg4) := by
  dsimp only [o5, o6]; after_results_simp
set_option maxHeartbeats 4000000 in
theorem k56_arg5 : after o6 (after o5 (V)) (Proc.devRef .tc main_arg5) = V (Proc.devRef .tc main_arg5) := by
  dsimp only [o5, o6]; after_results_simp
set_option maxHeartbeats 4000000 in
theorem k7_v3 : after o7 (V) (Proc.devRef .tc main_v3) = V (Proc.devRef .tc main_v3) := by
  dsimp only [o7]; after_results_simp
set_option maxHeartbeats 4000000 in
theorem k7_v6 : after o7 (V) (Proc.devRef .tc main_v6) = V (Proc.devRef .tc main_v6) := by
  dsimp only [o7]; after_results_simp
set_option maxHeartbeats 4000000 in
theorem k7_v30 : after o7 (V) (Proc.devRef .tc main_v30) = V (Proc.devRef .tc main_v30) := by
  dsimp only [o7]; after_results_simp
set_option maxHeartbeats 4000000 in
theorem k7_arg5 : after o7 (V) (Proc.devRef .tc main_arg5) = V (Proc.devRef .tc main_arg5) := by
  dsimp only [o7]; after_results_simp
set_option maxHeartbeats 4000000 in
theorem k2_v3 : after o2 (V) (Proc.devRef .tc main_v3) = V (Proc.devRef .tc main_v3) := by
  dsimp only [o2]; after_results_simp
set_option maxHeartbeats 4000000 in
theorem k2_v6 : after o2 (V) (Proc.devRef .tc main_v6) = V (Proc.devRef .tc main_v6) := by
  dsimp only [o2]; after_results_simp
end Stretches

variable (m : (ℓ : Loc nD τ sig) → Buf (Elt F) ℓ)

/-! ## The contents at each stretch's end, from the launch memory -/

abbrev R0 (c : Dev nD) : Valuation τ sig (Elt F) := launchContents m c
abbrev R1 (c : Dev nD) : Valuation τ sig (Elt F) := after o1 (R0 m c)
abbrev R2 (c : Dev nD) : Valuation τ sig (Elt F) := after o2 (R1 m c)
abbrev R3 (c : Dev nD) : Valuation τ sig (Elt F) := after o3 (R2 m c)
abbrev R4 (c : Dev nD) : Valuation τ sig (Elt F) := after o4 (R3 m c)
abbrev R5 (c : Dev nD) : Valuation τ sig (Elt F) := after o5 (R4 m c)
abbrev R6 (c : Dev nD) : Valuation τ sig (Elt F) := after o6 (R5 m c)
abbrev R7 (c : Dev nD) : Valuation τ sig (Elt F) := after o7 (R6 m c)
abbrev R8 (c : Dev nD) : Valuation τ sig (Elt F) := after o8 (R7 m c)
abbrev R9a (c : Dev nD) : Valuation τ sig (Elt F) := after o9a (R8 m c)
abbrev R9b (c : Dev nD) : Valuation τ sig (Elt F) := after o9b (R9a m c)
abbrev R9 (c : Dev nD) : Valuation τ sig (Elt F) := after o9c (R9b m c)

/-- After the whole list the contents are the ninth stretch's. -/
theorem after_ops (c : Dev nD) : after ValueP.ops (launchContents m c) = R9 m c := by
  rw [ops_eq]; simp only [StableHlo.after_append]

theorem r3_v3 (c : Dev nD) : R3 m c (Proc.devRef .tc main_v3) = val_main_v3 (F := F) (m ((c.tc : Thread nD τ).loc main_arg1)) :=
  (k23_v3 (R1 m c)).trans (s1_v3 (R0 m c))
theorem r3_v6 (c : Dev nD) : R3 m c (Proc.devRef .tc main_v6) = val_main_v6 (F := F) (m ((c.tc : Thread nD τ).loc main_arg1)) :=
  (k23_v6 (R1 m c)).trans (s1_v6 (R0 m c))
theorem r2_v15 (c : Dev nD) : R2 m c (Proc.devRef .tc main_v15) = val_main_v15 (F := F) (m ((c.tc : Thread nD τ).loc main_arg1)) :=
  s2_v15 (R1 m c) (m ((c.tc : Thread nD τ).loc main_arg1)) (s1_v12 (R0 m c)) (s1_v14 (R0 m c)) (s1_cst3 (R0 m c))
theorem r3_v30 (c : Dev nD) : R3 m c (Proc.devRef .tc main_v30) = val_main_v30 (F := F) (m ((c.tc : Thread nD τ).loc main_arg1)) :=
  s3_v30 (R2 m c) (m ((c.tc : Thread nD τ).loc main_arg1)) (r2_v15 m c) ((k2_v3 (R1 m c)).trans (s1_v3 (R0 m c))) ((k2_v6 (R1 m c)).trans (s1_v6 (R0 m c)))
theorem r3_arg0 (c : Dev nD) : R3 m c (Proc.devRef .tc main_arg0) = m ((c.tc : Thread nD τ).loc main_arg0) := k123_arg0 (R0 m c)
theorem r3_arg2 (c : Dev nD) : R3 m c (Proc.devRef .tc main_arg2) = m ((c.tc : Thread nD τ).loc main_arg2) := k123_arg2 (R0 m c)
theorem r3_arg3 (c : Dev nD) : R3 m c (Proc.devRef .tc main_arg3) = m ((c.tc : Thread nD τ).loc main_arg3) := k123_arg3 (R0 m c)
theorem r3_arg4 (c : Dev nD) : R3 m c (Proc.devRef .tc main_arg4) = m ((c.tc : Thread nD τ).loc main_arg4) := k123_arg4 (R0 m c)
theorem r3_arg5 (c : Dev nD) : R3 m c (Proc.devRef .tc main_arg5) = m ((c.tc : Thread nD τ).loc main_arg5) := k123_arg5 (R0 m c)

theorem r4_v31 (c : Dev nD) : R4 m c (Proc.devRef .tc main_v31) = val_main_v31 (F := F) (m ((c.tc : Thread nD τ).loc main_arg0)) (m ((c.tc : Thread nD τ).loc main_arg2)) := by
  refine (s4_v31 (R3 m c)).trans ?_
  rw [r3_arg0, r3_arg2]
theorem r4_v3 (c : Dev nD) : R4 m c (Proc.devRef .tc main_v3) = val_main_v3 (F := F) (m ((c.tc : Thread nD τ).loc main_arg1)) := (k4_v3 (R3 m c)).trans (r3_v3 m c)
theorem r4_v6 (c : Dev nD) : R4 m c (Proc.devRef .tc main_v6) = val_main_v6 (F := F) (m ((c.tc : Thread nD τ).loc main_arg1)) := (k4_v6 (R3 m c)).trans (r3_v6 m c)
theorem r4_v30 (c : Dev nD) : R4 m c (Proc.devRef .tc main_v30) = val_main_v30 (F := F) (m ((c.tc : Thread nD τ).loc main_arg1)) := (k4_v30 (R3 m c)).trans (r3_v30 m c)
theorem r4_arg3 (c : Dev nD) : R4 m c (Proc.devRef .tc main_arg3) = m ((c.tc : Thread nD τ).loc main_arg3) := (k4_arg3 (R3 m c)).trans (r3_arg3 m c)
theorem r4_arg4 (c : Dev nD) : R4 m c (Proc.devRef .tc main_arg4) = m ((c.tc : Thread nD τ).loc main_arg4) := (k4_arg4 (R3 m c)).trans (r3_arg4 m c)
theorem r4_arg5 (c : Dev nD) : R4 m c (Proc.devRef .tc main_arg5) = m ((c.tc : Thread nD τ).loc main_arg5) := (k4_arg5 (R3 m c)).trans (r3_arg5 m c)

theorem r6_v48 (c : Dev nD) : R6 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) :=
  s6_v48 (R5 m c) (m ((c.tc : Thread nD τ).loc main_arg0)) (m ((c.tc : Thread nD τ).loc main_arg1)) (m ((c.tc : Thread nD τ).loc main_arg2)) (m ((c.tc : Thread nD τ).loc main_arg3))
    (s5_v47 (R4 m c) (m ((c.tc : Thread nD τ).loc main_arg0)) (m ((c.tc : Thread nD τ).loc main_arg1)) (m ((c.tc : Thread nD τ).loc main_arg2)) (m ((c.tc : Thread nD τ).loc main_arg3)) (r4_v31 m c) (r4_v3 m c) (r4_v6 m c) (r4_v30 m c) (r4_arg3 m c))
theorem r6_v3 (c : Dev nD) : R6 m c (Proc.devRef .tc main_v3) = val_main_v3 (F := F) (m ((c.tc : Thread nD τ).loc main_arg1)) := (k56_v3 (R4 m c)).trans (r4_v3 m c)
theorem r6_v6 (c : Dev nD) : R6 m c (Proc.devRef .tc main_v6) = val_main_v6 (F := F) (m ((c.tc : Thread nD τ).loc main_arg1)) := (k56_v6 (R4 m c)).trans (r4_v6 m c)
theorem r6_v30 (c : Dev nD) : R6 m c (Proc.devRef .tc main_v30) = val_main_v30 (F := F) (m ((c.tc : Thread nD τ).loc main_arg1)) := (k56_v30 (R4 m c)).trans (r4_v30 m c)
theorem r6_arg4 (c : Dev nD) : R6 m c (Proc.devRef .tc main_arg4) = m ((c.tc : Thread nD τ).loc main_arg4) := (k56_arg4 (R4 m c)).trans (r4_arg4 m c)
theorem r6_arg5 (c : Dev nD) : R6 m c (Proc.devRef .tc main_arg5) = m ((c.tc : Thread nD τ).loc main_arg5) := (k56_arg5 (R4 m c)).trans (r4_arg5 m c)

theorem r7_v49 (c : Dev nD) : R7 m c (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (s7_v49 (R6 m c) (m ((c.tc : Thread nD τ).loc main_arg0)) (m ((c.tc : Thread nD τ).loc main_arg1)) (m ((c.tc : Thread nD τ).loc main_arg2)) (m ((c.tc : Thread nD τ).loc main_arg3)) (r6_v48 m c)).trans ?_
  rw [r6_arg4]
theorem r7_v3 (c : Dev nD) : R7 m c (Proc.devRef .tc main_v3) = val_main_v3 (F := F) (m ((c.tc : Thread nD τ).loc main_arg1)) := (k7_v3 (R6 m c)).trans (r6_v3 m c)
theorem r7_v6 (c : Dev nD) : R7 m c (Proc.devRef .tc main_v6) = val_main_v6 (F := F) (m ((c.tc : Thread nD τ).loc main_arg1)) := (k7_v6 (R6 m c)).trans (r6_v6 m c)
theorem r7_v30 (c : Dev nD) : R7 m c (Proc.devRef .tc main_v30) = val_main_v30 (F := F) (m ((c.tc : Thread nD τ).loc main_arg1)) := (k7_v30 (R6 m c)).trans (r6_v30 m c)
theorem r7_arg5 (c : Dev nD) : R7 m c (Proc.devRef .tc main_arg5) = m ((c.tc : Thread nD τ).loc main_arg5) := (k7_arg5 (R6 m c)).trans (r6_arg5 m c)

theorem r8_v65 (c : Dev nD) : R8 m c (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s8_v65 (R7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (r7_v49 m c) (r7_v3 m c) (r7_v6 m c) (r7_v30 m c) (r7_arg5 m c)

theorem r9a_v65 (c : Dev nD) : R9a m c (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := (k9a_v65 (R8 m c)).trans (r8_v65 m c)
theorem r9a_v2 (c : Dev nD) : R9a m c (Proc.devRef .tc main_call2_v2) = val_main_call2_v2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s9a_v2 (R8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (r8_v65 m c)

/-- The result buffer after the whole of @main is the last stage function of the launch arguments. -/
theorem r9_v66 (c : Dev nD) : R9 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  s9c_v66 (R9b m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (s9b_v5 (R9a m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (r9a_v65 m c) (r9a_v2 m c))
    (s9b_v6 (R9a m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (r9a_v65 m c) (r9a_v2 m c))
    (s9b_cst1 (R9a m c))

end Cert.ReferenceIdeal.Stages

end
-- ==== Proof.RefRunHand.lean ====
/-
  The reference program's run: every weakly fair execution of its one hundred host operations terminates, the result
  buffer at the last stage function of the launch arguments (the stretches' stage lemmas, joined), and each argument
  as launched — no operation of any stretch writes an argument's buffer.
-/
import proofs.«149497_j29832842838041_1_alg».proof.Proof.RefStages

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- No operation of the named stretch writes the buffer the goal speaks of: each operation writes its one result
    buffer, and that is another buffer. -/
local macro "nowrite " l:ident : tactic =>
  `(tactic| (refine List.forall_iff_forall_mem.mp ?_
             simp only [$l:ident, List.Forall, nullary_writes, unary_writes, binary_writes, ternary_writes, quaternary_writes,
               reshape_writes, binaryIndexed_writes, Finset.mem_singleton]
             repeat' apply And.intro
             all_goals exact devRef_ne_of_ne (by decide)))

variable (m : (ℓ : Loc nD τ sig) → Buf (Elt F) ℓ)

/-! ## The arguments end as launched -/

theorem kept_arg0 (c : Dev nD) :
    after ValueP.ops (launchContents m c) (Proc.devRef .tc main_arg0) = m ((c.tc : Thread nD τ).loc main_arg0) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

theorem kept_arg1 (c : Dev nD) :
    after ValueP.ops (launchContents m c) (Proc.devRef .tc main_arg1) = m ((c.tc : Thread nD τ).loc main_arg1) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

theorem kept_arg2 (c : Dev nD) :
    after ValueP.ops (launchContents m c) (Proc.devRef .tc main_arg2) = m ((c.tc : Thread nD τ).loc main_arg2) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

theorem kept_arg3 (c : Dev nD) :
    after ValueP.ops (launchContents m c) (Proc.devRef .tc main_arg3) = m ((c.tc : Thread nD τ).loc main_arg3) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

theorem kept_arg4 (c : Dev nD) :
    after ValueP.ops (launchContents m c) (Proc.devRef .tc main_arg4) = m ((c.tc : Thread nD τ).loc main_arg4) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

theorem kept_arg5 (c : Dev nD) :
    after ValueP.ops (launchContents m c) (Proc.devRef .tc main_arg5) = m ((c.tc : Thread nD τ).loc main_arg5) := by
  rw [ops_eq]; simp only [StableHlo.after_append]
  rw [after_of_forall_not_mem o9c _ (by nowrite o9c), after_of_forall_not_mem o9b _ (by nowrite o9b),
    after_of_forall_not_mem o9a _ (by nowrite o9a), after_of_forall_not_mem o8 _ (by nowrite o8),
    after_of_forall_not_mem o7 _ (by nowrite o7), after_of_forall_not_mem o6 _ (by nowrite o6),
    after_of_forall_not_mem o5 _ (by nowrite o5), after_of_forall_not_mem o4 _ (by nowrite o4),
    after_of_forall_not_mem o3 _ (by nowrite o3), after_of_forall_not_mem o2 _ (by nowrite o2),
    after_of_forall_not_mem o1 _ (by nowrite o1)]

/-! ## The run -/

set_option maxHeartbeats 4000000 in
/-- On every device, from any memory with zero counters: every weakly fair execution of @main terminates with the
    result at the last stage function of the launch arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans ((congrFun (after_ops m c) _).trans (r9_v66 m c)),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq ValueP.scopedRefs_eq ValueP.scopedSems_eq defs main (fun _ => ValueP.ops) ValueP.main_eq (fun _ => ValueP.ops_sub) m ρ)

end Cert.ReferenceIdeal.Stages

end
-- ==== Proof.lean ====
/-
  A two-layer graph convolution with symmetric degree normalisation and a final row-wise log-softmax, on 100000 nodes:
  the kernel program computes the two dense products (x · W1 and relu(…) · W2) and the log-softmax in three row-tiled
  regions of ten blocks of 10000 rows each, and leaves the irregular part — the edge lists with self-loops, the
  degrees and their guarded inverse square roots, and per layer the gather, the scaling, the scatter-add and the bias — to
  host operations; the reference does everything with host operations.

  At the extended reals the two programs compute the same function of the six inputs, with no side condition:
  * a matrix product into a zero accumulator and the host's `dot_general` are both, entry by entry, the sum over the
    contracted index; and row p of a product reads row p of the left operand only, so ten products over blocks of rows
    that tile the array are the one product over the whole array;
  * the log-softmax of a row reads that row only (its maximum folded from −∞, the sum of its shifted exponentials), so
    the same tiling argument applies; the reference's version joins the row maximum once more with −∞ and starts the
    row sum from 0, which changes nothing (`max (−∞) y = y`, `0 + s = s`);
  * every host operation of the kernel program is, operation for operation and literal for literal, one of the
    reference's, so the buffers agree boundary by boundary once the three dense pieces do.
  No law used needs finiteness (no distributivity, no cancellation), so the precondition is never opened.

  The frames of the two kernel programs are the generated ones; the reference's frame is its run with the result
  dropped; `preserves` is trivial (the idealization rewrote no operation).
-/
import proofs.«149497_j29832842838041_1_alg».proof.Defs
import proofs.«149497_j29832842838041_1_alg».proof.Proof.Gen.Kernel
import proofs.«149497_j29832842838041_1_alg».proof.Proof.Gen.Kernel.Skeleton
import proofs.«149497_j29832842838041_1_alg».proof.Proof.Gen.Kernel.Launch
import proofs.«149497_j29832842838041_1_alg».proof.Proof.Gen.Kernel.Points
import proofs.«149497_j29832842838041_1_alg».proof.Proof.Gen.Kernel.Frame
import proofs.«149497_j29832842838041_1_alg».proof.Proof.Gen.KernelIdeal
import proofs.«149497_j29832842838041_1_alg».proof.Proof.Gen.KernelIdeal.Skeleton
import proofs.«149497_j29832842838041_1_alg».proof.Proof.Gen.KernelIdeal.Launch
import proofs.«149497_j29832842838041_1_alg».proof.Proof.Gen.KernelIdeal.Points
import proofs.«149497_j29832842838041_1_alg».proof.Proof.Gen.KernelIdeal.Frame
import proofs.«149497_j29832842838041_1_alg».proof.Proof.Gen.ReferenceIdeal
import proofs.«149497_j29832842838041_1_alg».proof.Proof.Gen.Pre_finite_inputs
import proofs.«149497_j29832842838041_1_alg».proof.Proof.KRun
import proofs.«149497_j29832842838041_1_alg».proof.Proof.KStages
import proofs.«149497_j29832842838041_1_alg».proof.Proof.RefRunHand
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and its arguments end unchanged: its run, the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealization rewrote no operation. -/
theorem preserves : Cert.preserves_Kernel_KernelIdeal := trivial

/-- From memories that agree on the six inputs both idealized programs end with the result buffer at the same array:
    the kernel program's at region 2's exit contents, which is the reference's last stage function of the inputs. -/
theorem algebraic : Cert.algebraic_KernelIdeal_ReferenceIdeal := by
  intro m ρ m' ρ' _ hagree
  refine ⟨_, Cert.KernelIdeal.ValueRun.run_value (F := Ideal) m ρ, ?_⟩
  refine (θ_run Cert.ReferenceIdeal.defs _ _).mono (fun _ h c => ⟨(h c).1.trans ?_, (h c).2⟩)
    (Cert.ReferenceIdeal.Stages.run (F := Ideal) m' ρ')
  obtain ⟨h0, h1, h2, h3, h4, h5⟩ := hagree c
  rw [h0, h1, h2, h3, h4, h5]
  exact (Cert.KernelIdeal.Stages.w9_v66 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
